-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S2097152x16 : Shape := ⟨2, ![2097152, 16]⟩
abbrev S65536x2 : Shape := ⟨2, ![65536, 2]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S2097152x16 : S_.BroadcastsInDim S2097152x16 (![] : Fin 0 → Fin S2097152x16.rank)
  reducesTo_S2097152x16_S_d0_1 : S2097152x16.ReducesTo [0, 1] S_

variable [Facts]

def fn {F : FTy → Type} [FloatOps F] (main_arg0 : IVec S2097152 32) (main_arg1 : IVec S2097152x16 32) (main_arg2 : FVec F S65536x2 .f32) : IVec S_ 1 :=
  let main_v0 : FVec F S65536x2 .f32 := Host.absf main_arg2
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_c_0 : IVec S_ 32 := constantI S_ 32 0#32
  let main_v4 : IVec S2097152x16 32 := broadcastInDim S2097152x16 ![] bcast_S_S2097152x16 main_c_0
  let main_v5 : IVec S2097152x16 1 := cmpi .eq main_arg1 main_v4
  let main_c_1 : IVec S_ 32 := constantI S_ 32 1#32
  let main_v6 : IVec S2097152x16 32 := broadcastInDim S2097152x16 ![] bcast_S_S2097152x16 main_c_1
  let main_v7 : IVec S2097152x16 1 := cmpi .eq main_arg1 main_v6
  let main_v8 : IVec S2097152x16 1 := ori main_v5 main_v7
  let main_c_2 : IVec S_ 1 := constantI S_ 1 1#1
  let main_v9 : IVec S_ 1 := (fun x v => Host.reduce IntOp.andi x v reducesTo_S2097152x16_S_d0_1 h_S_) main_v8 main_c_2
  let main_v10 : IVec S_ 1 := andi main_v3 main_v9
  main_v10
-- ==== Kernel.lean ====
abbrev S2097152 : Shape := ⟨1, ![2097152]⟩
abbrev S2097152x16 : Shape := ⟨2, ![2097152, 16]⟩
abbrev S65536x2 : Shape := ⟨2, ![65536, 2]⟩
abbrev S_ : Shape := ⟨0, ![]⟩
abbrev S16 : Shape := ⟨1, ![16]⟩
abbrev S1x16 : Shape := ⟨2, ![1, 16]⟩
abbrev S2097152x1 : Shape := ⟨2, ![2097152, 1]⟩
abbrev S256x256x2 : Shape := ⟨3, ![256, 256, 2]⟩
abbrev S2x256x256 : Shape := ⟨3, ![2, 256, 256]⟩
abbrev S1x2x256x256 : Shape := ⟨4, ![1, 2, 256, 256]⟩
abbrev S2x2x256x256 : Shape := ⟨4, ![2, 2, 256, 256]⟩
abbrev S2097152x2 : Shape := ⟨2, ![2097152, 2]⟩
abbrev S4096x1 : Shape := ⟨2, ![4096, 1]⟩
abbrev S4096x2 : Shape := ⟨2, ![4096, 2]⟩
abbrev S1x256 : Shape := ⟨2, ![1, 256]⟩
abbrev S4096x256 : Shape := ⟨2, ![4096, 256]⟩
abbrev S1x1x256x256 : Shape := ⟨4, ![1, 1, 256, 256]⟩
abbrev S256x256 : Shape := ⟨2, ![256, 256]⟩
abbrev S4096 : Shape := ⟨1, ![4096]⟩

abbrev nBuf : Space → Nat
  | .hbm => 130
  | .vmem => 5
  | .smem => 0
  | _ => 0

abbrev hbmTy0_0 (i : Nat) : BufTy := match i % 128 with
  | 0 => ⟨S2097152, .i32⟩
  | 1 => ⟨S2097152x16, .i32⟩
  | 2 => ⟨S65536x2, .f32⟩
  | 3 => ⟨S_, .i32⟩
  | 4 => ⟨S_, .i32⟩
  | 5 => ⟨S_, .i32⟩
  | 6 => ⟨S2097152x16, .i32⟩
  | 7 => ⟨S2097152x16, .i32⟩
  | 8 => ⟨S_, .i32⟩
  | 9 => ⟨S2097152x16, .i32⟩
  | 10 => ⟨S2097152x16, .i32⟩
  | 11 => ⟨S16, .i32⟩
  | 12 => ⟨S_, .i32⟩
  | 13 => ⟨S16, .i32⟩
  | 14 => ⟨S16, .i32⟩
  | 15 => ⟨S_, .i32⟩
  | 16 => ⟨S16, .i32⟩
  | 17 => ⟨S16, .i32⟩
  | 18 => ⟨S_, .i32⟩
  | 19 => ⟨S_, .i32⟩
  | 20 => ⟨S_, .i1⟩
  | 21 => ⟨S_, .i32⟩
  | 22 => ⟨S16, .i32⟩
  | 23 => ⟨S16, .i1⟩
  | 24 => ⟨S16, .i1⟩
  | 25 => ⟨S16, .i1⟩
  | 26 => ⟨S_, .i32⟩
  | 27 => ⟨S_, .i32⟩
  | 28 => ⟨S16, .i32⟩
  | 29 => ⟨S16, .i32⟩
  | 30 => ⟨S16, .i32⟩
  | 31 => ⟨S_, .i32⟩
  | 32 => ⟨S16, .i32⟩
  | 33 => ⟨S16, .i32⟩
  | 34 => ⟨S_, .i32⟩
  | 35 => ⟨S16, .i32⟩
  | 36 => ⟨S16, .i32⟩
  | 37 => ⟨S_, .i32⟩
  | 38 => ⟨S16, .i32⟩
  | 39 => ⟨S16, .i1⟩
  | 40 => ⟨S16, .i32⟩
  | 41 => ⟨S_, .i32⟩
  | 42 => ⟨S_, .i32⟩
  | 43 => ⟨S_, .i32⟩
  | 44 => ⟨S_, .i32⟩
  | 45 => ⟨S16, .i32⟩
  | 46 => ⟨S16, .i32⟩
  | 47 => ⟨S_, .i32⟩
  | 48 => ⟨S16, .i32⟩
  | 49 => ⟨S16, .i32⟩
  | 50 => ⟨S16, .i32⟩
  | 51 => ⟨S16, .i32⟩
  | 52 => ⟨S_, .i32⟩
  | 53 => ⟨S16, .i32⟩
  | 54 => ⟨S16, .i1⟩
  | 55 => ⟨S16, .i32⟩
  | 56 => ⟨S_, .i32⟩
  | 57 => ⟨S_, .i32⟩
  | 58 => ⟨S16, .i32⟩
  | 59 => ⟨S16, .i32⟩
  | 60 => ⟨S_, .i32⟩
  | 61 => ⟨S16, .i32⟩
  | 62 => ⟨S16, .i32⟩
  | 63 => ⟨S16, .i32⟩
  | 64 => ⟨S16, .i32⟩
  | 65 => ⟨S_, .i32⟩
  | 66 => ⟨S16, .i32⟩
  | 67 => ⟨S16, .i1⟩
  | 68 => ⟨S16, .i32⟩
  | 69 => ⟨S_, .i32⟩
  | 70 => ⟨S_, .i32⟩
  | 71 => ⟨S16, .i32⟩
  | 72 => ⟨S16, .i32⟩
  | 73 => ⟨S_, .i32⟩
  | 74 => ⟨S16, .i32⟩
  | 75 => ⟨S16, .i32⟩
  | 76 => ⟨S16, .i32⟩
  | 77 => ⟨S16, .i32⟩
  | 78 => ⟨S_, .i32⟩
  | 79 => ⟨S16, .i32⟩
  | 80 => ⟨S16, .i1⟩
  | 81 => ⟨S16, .i32⟩
  | 82 => ⟨S_, .i32⟩
  | 83 => ⟨S_, .i32⟩
  | 84 => ⟨S16, .i32⟩
  | 85 => ⟨S16, .i32⟩
  | 86 => ⟨S_, .i32⟩
  | 87 => ⟨S16, .i32⟩
  | 88 => ⟨S16, .i32⟩
  | 89 => ⟨S16, .i32⟩
  | 90 => ⟨S16, .i32⟩
  | 91 => ⟨S_, .i32⟩
  | 92 => ⟨S16, .i32⟩
  | 93 => ⟨S16, .i1⟩
  | 94 => ⟨S16, .i32⟩
  | 95 => ⟨S_, .i32⟩
  | 96 => ⟨S_, .i32⟩
  | 97 => ⟨S16, .i32⟩
  | 98 => ⟨S16, .i32⟩
  | 99 => ⟨S_, .i32⟩
  | 100 => ⟨S16, .i32⟩
  | 101 => ⟨S16, .i32⟩
  | 102 => ⟨S16, .i32⟩
  | 103 => ⟨S16, .i32⟩
  | 104 => ⟨S_, .i32⟩
  | 105 => ⟨S16, .i32⟩
  | 106 => ⟨S16, .i1⟩
  | 107 => ⟨S16, .i32⟩
  | 108 => ⟨S_, .i32⟩
  | 109 => ⟨S_, .i32⟩
  | 110 => ⟨S16, .i32⟩
  | 111 => ⟨S16, .i32⟩
  | 112 => ⟨S1x16, .i32⟩
  | 113 => ⟨S2097152x16, .i32⟩
  | 114 => ⟨S2097152x16, .i32⟩
  | 115 => ⟨S_, .i32⟩
  | 116 => ⟨S2097152, .i32⟩
  | 117 => ⟨S2097152x1, .i32⟩
  | 118 => ⟨S256x256x2, .f32⟩
  | 119 => ⟨S2x256x256, .f32⟩
  | 120 => ⟨S2x256x256, .bf16⟩
  | 121 => ⟨S2x256x256, .f32⟩
  | 122 => ⟨S2x256x256, .f32⟩
  | 123 => ⟨S2x256x256, .bf16⟩
  | 124 => ⟨S1x2x256x256, .bf16⟩
  | 125 => ⟨S1x2x256x256, .bf16⟩
  | 126 => ⟨S2x2x256x256, .bf16⟩
  | 127 => ⟨S2097152x2, .f32⟩
  | _ => ⟨S2097152, .i32⟩

abbrev hbmTy0_1 (i : Nat) : BufTy := match i % 128 with
  | 0 => ⟨S2097152x1, .f32⟩
  | 1 => ⟨S2097152x1, .f32⟩
  | _ => ⟨S2097152, .i32⟩

abbrev hbmTy (i : Nat) : BufTy := match i / 128 with
  | 0 => hbmTy0_0 i
  | 1 => hbmTy0_1 i
  | _ => ⟨S2097152, .i32⟩

abbrev bufTy : (tb : Table) → Fin (tcTables nBuf tb) → BufTy
  | .hbm, ⟨i, _⟩ => hbmTy i
  | .local _ .vmem, ⟨0, _⟩ => ⟨S4096x1, .i32⟩
  | .local _ .vmem, ⟨1, _⟩ => ⟨S4096x1, .i32⟩
  | .local _ .vmem, ⟨2, _⟩ => ⟨S2x2x256x256, .bf16⟩
  | .local _ .vmem, ⟨3, _⟩ => ⟨S4096x2, .f32⟩
  | .local _ .vmem, ⟨4, _⟩ => ⟨S4096x2, .f32⟩
  | _, _ => ⟨S2097152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_c_1 : Ref sig .tc := ⟨.hbm, 12, rfl⟩
abbrev main_v2 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_c_3 : Ref sig .tc := ⟨.hbm, 18, rfl⟩
abbrev main_c_4 : Ref sig .tc := ⟨.hbm, 19, rfl⟩
abbrev main_v6 : Ref sig .tc := ⟨.hbm, 20, rfl⟩
abbrev main_c_5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_6 : Ref sig .tc := ⟨.hbm, 26, rfl⟩
abbrev main_c_7 : Ref sig .tc := ⟨.hbm, 27, rfl⟩
abbrev main_call1_v0 : Ref sig .tc := ⟨.hbm, 28, rfl⟩
abbrev main_call1_v1 : Ref sig .tc := ⟨.hbm, 29, rfl⟩
abbrev main_v11 : Ref sig .tc := ⟨.hbm, 30, rfl⟩
abbrev main_c_8 : Ref sig .tc := ⟨.hbm, 31, rfl⟩
abbrev main_v12 : Ref sig .tc := ⟨.hbm, 32, rfl⟩
abbrev main_v13 : Ref sig .tc := ⟨.hbm, 33, rfl⟩
abbrev main_c_9 : Ref sig .tc := ⟨.hbm, 34, rfl⟩
abbrev main_v14 : Ref sig .tc := ⟨.hbm, 35, rfl⟩
abbrev main_v15 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_v16 : Ref sig .tc := ⟨.hbm, 40, rfl⟩
abbrev main_c_10 : Ref sig .tc := ⟨.hbm, 41, rfl⟩
abbrev main_c_11 : Ref sig .tc := ⟨.hbm, 42, rfl⟩
abbrev main_v17 : Ref sig .tc := ⟨.hbm, 43, rfl⟩
abbrev main_c_12 : Ref sig .tc := ⟨.hbm, 44, rfl⟩
abbrev main_v18 : Ref sig .tc := ⟨.hbm, 45, rfl⟩
abbrev main_v19 : Ref sig .tc := ⟨.hbm, 46, rfl⟩
abbrev main_c_13 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_v24 : Ref sig .tc := ⟨.hbm, 55, rfl⟩
abbrev main_v25 : Ref sig .tc := ⟨.hbm, 56, rfl⟩
abbrev main_c_14 : Ref sig .tc := ⟨.hbm, 57, rfl⟩
abbrev main_v26 : Ref sig .tc := ⟨.hbm, 58, rfl⟩
abbrev main_v27 : Ref sig .tc := ⟨.hbm, 59, rfl⟩
abbrev main_c_15 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_call4_c : Ref sig .tc := ⟨.hbm, 65, rfl⟩
abbrev main_call4_v0 : Ref sig .tc := ⟨.hbm, 66, rfl⟩
abbrev main_call4_v1 : Ref sig .tc := ⟨.hbm, 67, rfl⟩
abbrev main_v32 : Ref sig .tc := ⟨.hbm, 68, rfl⟩
abbrev main_v33 : Ref sig .tc := ⟨.hbm, 69, rfl⟩
abbrev main_c_16 : Ref sig .tc := ⟨.hbm, 70, rfl⟩
abbrev main_v34 : Ref sig .tc := ⟨.hbm, 71, rfl⟩
abbrev main_v35 : Ref sig .tc := ⟨.hbm, 72, rfl⟩
abbrev main_c_17 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_call5_c : Ref sig .tc := ⟨.hbm, 78, rfl⟩
abbrev main_call5_v0 : Ref sig .tc := ⟨.hbm, 79, rfl⟩
abbrev main_call5_v1 : Ref sig .tc := ⟨.hbm, 80, rfl⟩
abbrev main_v40 : Ref sig .tc := ⟨.hbm, 81, rfl⟩
abbrev main_v41 : Ref sig .tc := ⟨.hbm, 82, rfl⟩
abbrev main_c_18 : Ref sig .tc := ⟨.hbm, 83, rfl⟩
abbrev main_v42 : Ref sig .tc := ⟨.hbm, 84, rfl⟩
abbrev main_v43 : Ref sig .tc := ⟨.hbm, 85, rfl⟩
abbrev main_c_19 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_call6_c : Ref sig .tc := ⟨.hbm, 91, rfl⟩
abbrev main_call6_v0 : Ref sig .tc := ⟨.hbm, 92, rfl⟩
abbrev main_call6_v1 : Ref sig .tc := ⟨.hbm, 93, rfl⟩
abbrev main_v48 : Ref sig .tc := ⟨.hbm, 94, rfl⟩
abbrev main_v49 : Ref sig .tc := ⟨.hbm, 95, rfl⟩
abbrev main_c_20 : Ref sig .tc := ⟨.hbm, 96, rfl⟩
abbrev main_v50 : Ref sig .tc := ⟨.hbm, 97, rfl⟩
abbrev main_v51 : Ref sig .tc := ⟨.hbm, 98, rfl⟩
abbrev main_c_21 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_call7_c : Ref sig .tc := ⟨.hbm, 104, rfl⟩
abbrev main_call7_v0 : Ref sig .tc := ⟨.hbm, 105, rfl⟩
abbrev main_call7_v1 : Ref sig .tc := ⟨.hbm, 106, rfl⟩
abbrev main_v56 : Ref sig .tc := ⟨.hbm, 107, rfl⟩
abbrev main_v57 : Ref sig .tc := ⟨.hbm, 108, rfl⟩
abbrev main_c_22 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_c_23 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2097152x16 : S_.BroadcastsInDim S2097152x16 (![] : Fin 0 → Fin S2097152x16.rank)
  bcast_S_S16 : S_.BroadcastsInDim S16 (![] : Fin 0 → Fin S16.rank)
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  reducesTo_S2097152x16_S2097152_d1 : S2097152x16.ReducesTo [1] S2097152
  h_S_ : 0 < S_.numel
  shapeCasts_S2097152_S2097152x1 : S2097152.ShapeCasts S2097152x1
  shapeCasts_S65536x2_S256x256x2 : S65536x2.ShapeCasts S256x256x2
  transposes_S256x256x2_S2x256x256_2_0_1 : S256x256x2.Transposes [2, 0, 1] S2x256x256
  bitsLt_bf16_f32 : FTy.bits .bf16 < FTy.bits .f32
  bcast_S2x256x256_S1x2x256x256_1_2_3 : S2x256x256.BroadcastsInDim S1x2x256x256 (![1, 2, 3] : Fin 3 → Fin S1x2x256x256.rank)
  concatenates_S1x2x256x256_S1x2x256x256_S2x2x256x256_d0 : Shape.Concatenates [S1x2x256x256, S1x2x256x256] S2x2x256x256 0
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S1x256_d1_w32 : S1x256.Iotas .tc 32 [1]
  broadcasts_S4096x1_S4096x256 : S4096x1.Broadcasts S4096x256
  broadcasts_S1x256_S4096x256 : S1x256.Broadcasts S4096x256
  natLt_1_32 : 1 < 32
  inb_S2x2x256x256_S1x1x256x256_0_0_0_0 : ∀ a, (![0, 0, 0, 0] : Fin 4 → Nat) a + S1x1x256x256.size a ≤ S2x2x256x256.size a
  h_S1x1x256x256 : 0 < S1x1x256x256.numel
  shapeCasts_S1x1x256x256_S256x256 : S1x1x256x256.ShapeCasts S256x256
  inb_S2x2x256x256_S1x1x256x256_1_0_0_0 : ∀ a, (![1, 0, 0, 0] : Fin 4 → Nat) a + S1x1x256x256.size a ≤ S2x2x256x256.size a
  reduces_S4096x256_S4096 : S4096x256.Reduces [1] S4096
  shapeCasts_S4096_S4096x1 : S4096.ShapeCasts S4096x1
  inb_S4096x2_S4096x1_0_0 : ∀ a, (![0, 0] : Fin 2 → Nat) a + S4096x1.size a ≤ S4096x2.size a
  inb_S2x2x256x256_S1x1x256x256_0_1_0_0 : ∀ a, (![0, 1, 0, 0] : Fin 4 → Nat) a + S1x1x256x256.size a ≤ S2x2x256x256.size a
  inb_S2x2x256x256_S1x1x256x256_1_1_0_0 : ∀ a, (![1, 1, 0, 0] : Fin 4 → Nat) a + S1x1x256x256.size a ≤ S2x2x256x256.size a
  inb_S4096x2_S4096x1_0_1 : ∀ a, (![0, 1] : Fin 2 → Nat) a + S4096x1.size a ≤ S4096x2.size a
  slices_S2097152x2_S2097152x1_0_0 : S2097152x2.Slices ![0, 0] S2097152x1
  slices_S2097152x2_S2097152x1_0_1 : S2097152x2.Slices ![0, 1] S2097152x1
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S2097152x1.size a
  hwx0_0 : ∀ i : grid0.Coords, EltTy.bits .i32 = 32 ∨ (Rect.block (s := S2097152x1) S4096x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2x256x256.size a ≤ S2x2x256x256.size a
  hwx0_1 : ∀ i : grid0.Coords, EltTy.bits .bf16 = 32 ∨ (Rect.block (s := S2x2x256x256) S2x2x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x2.size a ≤ S2097152x2.size a
  hwx0_2 : ∀ i : grid0.Coords, EltTy.bits .f32 = 32 ∨ (Rect.block (s := S2097152x2) S4096x2.size (cc0_transform_2 i) (hinb0_2 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v64) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v73) S2x2x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v74) S4096x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152 : Shape := ⟨1, ![2097152]⟩
abbrev S2097152x16 : Shape := ⟨2, ![2097152, 16]⟩
abbrev S65536x2 : Shape := ⟨2, ![65536, 2]⟩
abbrev S16 : Shape := ⟨1, ![16]⟩
abbrev S_ : Shape := ⟨0, ![]⟩
abbrev S1x16 : Shape := ⟨2, ![1, 16]⟩
abbrev S2097152x1 : Shape := ⟨2, ![2097152, 1]⟩
abbrev S2097152x2 : Shape := ⟨2, ![2097152, 2]⟩

abbrev nBuf : Space → Nat
  | .hbm => 120
  | .vmem => 0
  | .smem => 0
  | _ => 0

abbrev bufTy : (tb : Table) → Fin (tcTables nBuf tb) → BufTy
  | .hbm, ⟨0, _⟩ => ⟨S2097152, .i32⟩
  | .hbm, ⟨1, _⟩ => ⟨S2097152x16, .i32⟩
  | .hbm, ⟨2, _⟩ => ⟨S65536x2, .f32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S16, .i1⟩
  | .hbm, ⟨17, _⟩ => ⟨S16, .i1⟩
  | .hbm, ⟨18, _⟩ => ⟨S_, .i32⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S_, .i32⟩
  | .hbm, ⟨30, _⟩ => ⟨S16, .i32⟩
  | .hbm, ⟨31, _⟩ => ⟨S16, .i1⟩
  | .hbm, ⟨32, _⟩ => ⟨S16, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S_, .i32⟩
  | .hbm, ⟨40, _⟩ => ⟨S16, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S_, .i32⟩
  | .hbm, ⟨45, _⟩ => ⟨S16, .i32⟩
  | .hbm, ⟨46, _⟩ => ⟨S16, .i1⟩
  | .hbm, ⟨47, _⟩ => ⟨S16, .i32⟩
  | .hbm, ⟨48, _⟩ => ⟨S_, .i32⟩
  | .hbm, ⟨49, _⟩ => ⟨S_, .i32⟩
  | .hbm, ⟨50, _⟩ => ⟨S16, .i32⟩
  | .hbm, ⟨51, _⟩ => ⟨S16, .i32⟩
  | .hbm, ⟨52, _⟩ => ⟨S_, .i32⟩
  | .hbm, ⟨53, _⟩ => ⟨S16, .i32⟩
  | .hbm, ⟨54, _⟩ => ⟨S16, .i32⟩
  | .hbm, ⟨55, _⟩ => ⟨S16, .i32⟩
  | .hbm, ⟨56, _⟩ => ⟨S16, .i32⟩
  | .hbm, ⟨57, _⟩ => ⟨S_, .i32⟩
  | .hbm, ⟨58, _⟩ => ⟨S16, .i32⟩
  | .hbm, ⟨59, _⟩ => ⟨S16, .i1⟩
  | .hbm, ⟨60, _⟩ => ⟨S16, .i32⟩
  | .hbm, ⟨61, _⟩ => ⟨S_, .i32⟩
  | .hbm, ⟨62, _⟩ => ⟨S_, .i32⟩
  | .hbm, ⟨63, _⟩ => ⟨S16, .i32⟩
  | .hbm, ⟨64, _⟩ => ⟨S16, .i32⟩
  | .hbm, ⟨65, _⟩ => ⟨S_, .i32⟩
  | .hbm, ⟨66, _⟩ => ⟨S16, .i32⟩
  | .hbm, ⟨67, _⟩ => ⟨S16, .i32⟩
  | .hbm, ⟨68, _⟩ => ⟨S16, .i32⟩
  | .hbm, ⟨69, _⟩ => ⟨S16, .i32⟩
  | .hbm, ⟨70, _⟩ => ⟨S_, .i32⟩
  | .hbm, ⟨71, _⟩ => ⟨S16, .i32⟩
  | .hbm, ⟨72, _⟩ => ⟨S16, .i1⟩
  | .hbm, ⟨73, _⟩ => ⟨S16, .i32⟩
  | .hbm, ⟨74, _⟩ => ⟨S_, .i32⟩
  | .hbm, ⟨75, _⟩ => ⟨S_, .i32⟩
  | .hbm, ⟨76, _⟩ => ⟨S16, .i32⟩
  | .hbm, ⟨77, _⟩ => ⟨S16, .i32⟩
  | .hbm, ⟨78, _⟩ => ⟨S_, .i32⟩
  | .hbm, ⟨79, _⟩ => ⟨S16, .i32⟩
  | .hbm, ⟨80, _⟩ => ⟨S16, .i32⟩
  | .hbm, ⟨81, _⟩ => ⟨S16, .i32⟩
  | .hbm, ⟨82, _⟩ => ⟨S16, .i32⟩
  | .hbm, ⟨83, _⟩ => ⟨S_, .i32⟩
  | .hbm, ⟨84, _⟩ => ⟨S16, .i32⟩
  | .hbm, ⟨85, _⟩ => ⟨S16, .i1⟩
  | .hbm, ⟨86, _⟩ => ⟨S16, .i32⟩
  | .hbm, ⟨87, _⟩ => ⟨S_, .i32⟩
  | .hbm, ⟨88, _⟩ => ⟨S_, .i32⟩
  | .hbm, ⟨89, _⟩ => ⟨S16, .i32⟩
  | .hbm, ⟨90, _⟩ => ⟨S16, .i32⟩
  | .hbm, ⟨91, _⟩ => ⟨S_, .i32⟩
  | .hbm, ⟨92, _⟩ => ⟨S16, .i32⟩
  | .hbm, ⟨93, _⟩ => ⟨S16, .i32⟩
  | .hbm, ⟨94, _⟩ => ⟨S16, .i32⟩
  | .hbm, ⟨95, _⟩ => ⟨S16, .i32⟩
  | .hbm, ⟨96, _⟩ => ⟨S_, .i32⟩
  | .hbm, ⟨97, _⟩ => ⟨S16, .i32⟩
  | .hbm, ⟨98, _⟩ => ⟨S16, .i1⟩
  | .hbm, ⟨99, _⟩ => ⟨S16, .i32⟩
  | .hbm, ⟨100, _⟩ => ⟨S_, .i32⟩
  | .hbm, ⟨101, _⟩ => ⟨S_, .i32⟩
  | .hbm, ⟨102, _⟩ => ⟨S16, .i32⟩
  | .hbm, ⟨103, _⟩ => ⟨S16, .i32⟩
  | .hbm, ⟨104, _⟩ => ⟨S1x16, .i32⟩
  | .hbm, ⟨105, _⟩ => ⟨S2097152x16, .i32⟩
  | .hbm, ⟨106, _⟩ => ⟨S2097152x16, .i32⟩
  | .hbm, ⟨107, _⟩ => ⟨S_, .i32⟩
  | .hbm, ⟨108, _⟩ => ⟨S2097152, .i32⟩
  | .hbm, ⟨109, _⟩ => ⟨S_, .i32⟩
  | .hbm, ⟨110, _⟩ => ⟨S2097152, .i32⟩
  | .hbm, ⟨111, _⟩ => ⟨S2097152, .i1⟩
  | .hbm, ⟨112, _⟩ => ⟨S_, .i32⟩
  | .hbm, ⟨113, _⟩ => ⟨S2097152, .i32⟩
  | .hbm, ⟨114, _⟩ => ⟨S2097152, .i32⟩
  | .hbm, ⟨115, _⟩ => ⟨S2097152, .i32⟩
  | .hbm, ⟨116, _⟩ => ⟨S2097152x1, .i32⟩
  | .hbm, ⟨117, _⟩ => ⟨S2097152x2, .f32⟩
  | .hbm, ⟨118, _⟩ => ⟨S2097152x1, .f32⟩
  | .hbm, ⟨119, _⟩ => ⟨S2097152x1, .f32⟩
  | _, _ => ⟨S2097152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_v5 : Ref sig .tc := ⟨.hbm, 12, rfl⟩
abbrev main_c_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_c_5 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c_6 : Ref sig .tc := ⟨.hbm, 23, rfl⟩
abbrev main_v11 : Ref sig .tc := ⟨.hbm, 24, rfl⟩
abbrev main_v12 : Ref sig .tc := ⟨.hbm, 25, rfl⟩
abbrev main_c_7 : Ref sig .tc := ⟨.hbm, 26, rfl⟩
abbrev main_v13 : Ref sig .tc := ⟨.hbm, 27, rfl⟩
abbrev main_v14 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_v15 : Ref sig .tc := ⟨.hbm, 32, rfl⟩
abbrev main_c_8 : Ref sig .tc := ⟨.hbm, 33, rfl⟩
abbrev main_c_9 : Ref sig .tc := ⟨.hbm, 34, rfl⟩
abbrev main_v16 : Ref sig .tc := ⟨.hbm, 35, rfl⟩
abbrev main_c_10 : Ref sig .tc := ⟨.hbm, 36, rfl⟩
abbrev main_v17 : Ref sig .tc := ⟨.hbm, 37, rfl⟩
abbrev main_v18 : Ref sig .tc := ⟨.hbm, 38, rfl⟩
abbrev main_c_11 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_v23 : Ref sig .tc := ⟨.hbm, 47, rfl⟩
abbrev main_v24 : Ref sig .tc := ⟨.hbm, 48, rfl⟩
abbrev main_c_12 : Ref sig .tc := ⟨.hbm, 49, rfl⟩
abbrev main_v25 : Ref sig .tc := ⟨.hbm, 50, rfl⟩
abbrev main_v26 : Ref sig .tc := ⟨.hbm, 51, rfl⟩
abbrev main_c_13 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_v31 : Ref sig .tc := ⟨.hbm, 60, rfl⟩
abbrev main_v32 : Ref sig .tc := ⟨.hbm, 61, rfl⟩
abbrev main_c_14 : Ref sig .tc := ⟨.hbm, 62, rfl⟩
abbrev main_v33 : Ref sig .tc := ⟨.hbm, 63, rfl⟩
abbrev main_v34 : Ref sig .tc := ⟨.hbm, 64, rfl⟩
abbrev main_c_15 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_v39 : Ref sig .tc := ⟨.hbm, 73, rfl⟩
abbrev main_v40 : Ref sig .tc := ⟨.hbm, 74, rfl⟩
abbrev main_c_16 : Ref sig .tc := ⟨.hbm, 75, rfl⟩
abbrev main_v41 : Ref sig .tc := ⟨.hbm, 76, rfl⟩
abbrev main_v42 : Ref sig .tc := ⟨.hbm, 77, rfl⟩
abbrev main_c_17 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_call5_c : Ref sig .tc := ⟨.hbm, 83, rfl⟩
abbrev main_call5_v0 : Ref sig .tc := ⟨.hbm, 84, rfl⟩
abbrev main_call5_v1 : Ref sig .tc := ⟨.hbm, 85, rfl⟩
abbrev main_v47 : Ref sig .tc := ⟨.hbm, 86, rfl⟩
abbrev main_v48 : Ref sig .tc := ⟨.hbm, 87, rfl⟩
abbrev main_c_18 : Ref sig .tc := ⟨.hbm, 88, rfl⟩
abbrev main_v49 : Ref sig .tc := ⟨.hbm, 89, rfl⟩
abbrev main_v50 : Ref sig .tc := ⟨.hbm, 90, rfl⟩
abbrev main_c_19 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call6_c : Ref sig .tc := ⟨.hbm, 96, rfl⟩
abbrev main_call6_v0 : Ref sig .tc := ⟨.hbm, 97, rfl⟩
abbrev main_call6_v1 : Ref sig .tc := ⟨.hbm, 98, rfl⟩
abbrev main_v55 : Ref sig .tc := ⟨.hbm, 99, rfl⟩
abbrev main_v56 : Ref sig .tc := ⟨.hbm, 100, rfl⟩
abbrev main_c_20 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_21 : Ref sig .tc := ⟨.hbm, 107, rfl⟩
abbrev main_v62 : Ref sig .tc := ⟨.hbm, 108, rfl⟩
abbrev main_c_22 : Ref sig .tc := ⟨.hbm, 109, rfl⟩
abbrev main_v63 : Ref sig .tc := ⟨.hbm, 110, rfl⟩
abbrev main_v64 : Ref sig .tc := ⟨.hbm, 111, rfl⟩
abbrev main_c_23 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  reducesTo_S2097152x16_S2097152_d1 : S2097152x16.ReducesTo [1] S2097152
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  slices_S2097152x2_S2097152x1_0_0 : S2097152x2.Slices ![0, 0] S2097152x1
  slices_S2097152x2_S2097152x1_0_1 : S2097152x2.Slices ![0, 1] S2097152x1
  gather_S65536x2_S2097152x1_S2097152x2_1_0_n_n_0_1_12_wf : GatherDims.WF S65536x2 S2097152x1 S2097152x2 [1] [0] [] [0] [] 1 ![1, 2]

variable [Facts₀]

def gather_S65536x2_S2097152x1_S2097152x2_1_0_n_n_0_1_12 : GatherDims S65536x2 S2097152x1 S2097152x2 where
  offsetDims := [1]
  collapsedSliceDims := [0]
  operandBatchingDims := []
  startIndicesBatchingDims := []
  startIndexMap := [0]
  indexVectorDim := 1
  sliceSizes := ![1, 2]
  wf := gather_S65536x2_S2097152x1_S2097152x2_1_0_n_n_0_1_12_wf

class Facts : Prop extends Facts₀ where

variable [Facts]
-- ==== Proof.PreDecode.lean ====
/-
  What the precondition says, entry by entry.

  The precondition is one bit: the conjunction of "every entry of the table has absolute value below +infinity" and
  "every entry of the digit array equals 0 or equals 1". Read at an entry: each table entry is a real number (an extended
  real whose absolute value is below the top element is neither infinity), and each digit is the word 0 or the word 1.
-/
import proofs.«417682_j17712445129393_3_alg».proof.Defs
import proofs.«417682_j17712445129393_3_alg».proof.Proof.Gen.Pre_finite_inputs
import Idealize.ShloMosaic.Lib.ReduceAll
import Idealize.ShloMosaic.Lib.Affine
import Idealize.ShloMosaic.Lib.StableHlo.Predicate
import Idealize.ShloMosaic.Lib.ValueIdx
import Idealize.ShloMosaic.PureOps.Ideal.Laws

noncomputable section

namespace Cert.PreDecode

open Idealize.ShloMosaic Idealize.ShloMosaic.ValueIdx Idealize.ShloMosaic.StableHlo.Predicate
open Cert.Pre_finite_inputs Cert.Pre_finite_inputs.Facts

instance : Subsingleton S_.Idx := ⟨fun _ _ => funext fun d => d.elim0⟩

/-- The word of +infinity in the 32-bit format denotes the top element. -/
theorem top_word : Ideal.ofBits .f32 0x7F800000#32 = ⊤ := by simp [Ideal.ofBits, Ideal.ieee]

/-- An extended real whose absolute value is below the top element is a real number. -/
theorem real_of_abs_lt_top (a : EReal) (h : max a (-a) < ⊤) : ∃ r : ℝ, a = (r : EReal) := by
  induction a using EReal.rec with
  | bot => simp at h
  | coe r => exact ⟨r, rfl⟩
  | top => simp at h

/-- THE PRECONDITION, DECODED: every digit is 0 or 1, and every table entry is a real number. -/
theorem decode (x0 : IVec S2097152 32) (x1 : IVec S2097152x16 32) (x2 : FVec Ideal S65536x2 .f32)
    (h : fn (F := Ideal) x0 x1 x2 = fun _ => 1#1) :
    (∀ i, x1 i = 0#32 ∨ x1 i = 1#32) ∧ (∀ j, ∃ r : ℝ, x2 j = (r : EReal)) := by
  have h0 := congrFun h ix0
  dsimp only [fn] at h0
  obtain ⟨hf, hd⟩ := IntOp.andi_eq_one.mp h0
  constructor
  · intro i
    have hi := Host.reduce_andi_all _ _ _ _ ix0 hd i
    rcases IntOp.ori_eq_one.mp hi with e | e
    · exact Or.inl (cmpi_eq_iff.mp e)
    · exact Or.inr (cmpi_eq_iff.mp e)
  · intro j
    have hj := Host.reduce_andi_all _ _ _ _ ix0 hf j
    have hlt : max (x2 j) (-(x2 j)) < ⊤ := by
      have e : Ideal.cmp .olt (max (x2 j) (-(x2 j))) (Ideal.ofBits .f32 0x7F800000#32) = 1#1 := hj
      rw [top_word] at e
      have e' : decide (max (x2 j) (-(x2 j)) < ⊤) = true := (ofBool_eq_one_iff _).mp e
      exact of_decide_eq_true e'
    exact real_of_abs_lt_top _ hlt

end Cert.PreDecode

end
-- ==== Proof.Words.lean ====
/-
  Word arithmetic behind a sixteen-digit binary code.

  A row of sixteen 32-bit words, each 0 or 1, is read as the binary numeral whose digit k has weight 2^(15-k).
  The sum of digit times weight, taken in wrapping 32-bit arithmetic, never wraps: it is below 2^16. Such a word
  splits into a high byte (the arithmetic shift right by eight) and a low byte (the mask with 255), with
  256 * high + low the word again; the signed reading of the word is its unsigned one, so it is not negative
  and a clamp into [0, 65535] leaves it. A test of two words for equality, widened to 32 bits and read as a
  number, is one where they agree and zero elsewhere.
-/
import Idealize.ShloMosaic.PureOps
import Idealize.ShloMosaic.PureOps.Reduce
import Idealize.ShloMosaic.Lib.StableHlo.Predicate
import Mathlib.Algebra.BigOperators.Fin
import Mathlib.Algebra.Order.BigOperators.Group.Finset
import Mathlib.Data.EReal.Basic

namespace Cert.Words

open Idealize.ShloMosaic Idealize.ShloMosaic.StableHlo.Predicate
open scoped BigOperators

/-- Clamping a binary digit into [0, 1] (the larger of 0 and the digit, then the smaller of 1 and that) leaves it. -/
theorem clip_digit (w : BitVec 32) (h : w = 0#32 ∨ w = 1#32) : IntOp.minsi 1#32 (IntOp.maxsi 0#32 w) = w := by
  rcases h with rfl | rfl <;> decide

/-- A digit times a weight is at most the weight. -/
theorem digit_mul_le (d p : BitVec 32) (h : d = 0#32 ∨ d = 1#32) : (IntOp.muli d p).toNat ≤ p.toNat := by
  rcases h with rfl | rfl
  · show (0#32 * p).toNat ≤ _
    rw [BitVec.zero_mul]; exact Nat.zero_le _
  · show (1#32 * p).toNat ≤ _
    rw [BitVec.one_mul]

/-- The sixteen weights 2^15, …, 2^0 add up to 2^16 - 1. -/
theorem weights_sum : ∑ k : Fin 16, 2 ^ (15 - k.val) = 65535 := by decide

/-- THE CODE DOES NOT WRAP: sixteen binary digits against the weights 2^(15-k), summed in 32-bit words, stay below 2^16. -/
theorem code_lt (f pw : Fin 16 → BitVec 32) (hf : ∀ k, f k = 0#32 ∨ f k = 1#32) (hpw : ∀ k, (pw k).toNat = 2 ^ (15 - k.val)) :
    ((Finset.univ : Finset (Fin 16)).fold IntOp.addi 0#32 (fun k => IntOp.muli (f k) (pw k))).toNat < 65536 := by
  have hle : ∑ k : Fin 16, (IntOp.muli (f k) (pw k)).toNat ≤ 65535 := by
    rw [← weights_sum]
    exact Finset.sum_le_sum fun k _ => (digit_mul_le _ _ (hf k)).trans (hpw k).le
  rw [toNat_fold_addi _ _ (by omega)]
  omega

/-- The high byte: the arithmetic shift right by eight of a word below 2^16 is its quotient by 256. -/
theorem high_byte (w : BitVec 32) (h : w.toNat < 65536) : (IntOp.shrsi .vector w 8#32).toNat = w.toNat / 256 := by
  have hmsb : w.msb = false := (BitVec.msb_eq_false_iff_two_mul_lt).2 (by omega)
  unfold IntOp.shrsi
  rw [if_pos (by decide)]
  show (w.sshiftRight (8#32).toNat).toNat = _
  rw [BitVec.sshiftRight_eq_of_msb_false hmsb, BitVec.toNat_ushiftRight, Nat.shiftRight_eq_div_pow]
  rfl

/-- The low byte: the mask with 255 is the remainder by 256. -/
theorem low_byte (w : BitVec 32) : (IntOp.andi w 255#32).toNat = w.toNat % 256 := by
  show (w &&& 255#32).toNat = _
  rw [BitVec.toNat_and]
  exact Nat.and_two_pow_sub_one_eq_mod w.toNat 8

/-- A word below 2^16 is not negative: the signed test against zero fails, so a choice made on it takes the second branch. -/
theorem select_nonneg {α : Type} (w : BitVec 32) (h : w.toNat < 65536) (a b : α) :
    Scalar.select (IntOp.cmpi .slt w 0#32) a b = b := by
  have hti : w.toInt = w.toNat := toInt_eq_toNat_of_lt (by omega)
  have : IntOp.cmpi .slt w 0#32 = 0#1 := by
    show BitVec.ofBool (w.slt 0#32) = 0#1
    have : w.slt 0#32 = false := by
      simp only [BitVec.slt, hti, BitVec.toInt_zero, decide_eq_false_iff_not, not_lt]
      exact Int.natCast_nonneg _
    rw [this]; rfl
  rw [this]; rfl

/-- The signed reading of a word below 2^16, clamped into [0, 65535], is the word's value. -/
theorem clamp_row (w : BitVec 32) (h : w.toNat < 65536) : min w.toInt.toNat (65536 - 1) = w.toNat := by
  have hti : w.toInt = w.toNat := toInt_eq_toNat_of_lt (by omega)
  rw [hti, Int.toNat_natCast]
  omega

/-- A one-bit word that is not one is zero. -/
theorem bit_eq_zero_of_ne_one (b : BitVec 1) (h : b ≠ 1#1) : b = 0#1 := by
  revert h; revert b; decide

/-- THE ONE-HOT ENTRY: the equality test of two words, widened to 32 bits and read as an extended real, is one where the
    words agree and zero elsewhere. -/
theorem onehot (a b : BitVec 32) :
    (((((IntOp.cmpi .eq a b).setWidth 32).toInt : ℝ)) : EReal) = if a = b then 1 else 0 := by
  by_cases h : a = b
  · rw [if_pos h, cmpi_eq_iff.mpr h]
    have : ((1#1 : BitVec 1).setWidth 32).toInt = 1 := by decide
    rw [this]; norm_num
  · rw [if_neg h, bit_eq_zero_of_ne_one _ (fun e => h (cmpi_eq_iff.mp e))]
    have : ((0#1 : BitVec 1).setWidth 32).toInt = 0 := by decide
    rw [this]; norm_num

/-- Lane k of a 256-lane iota, as a word, equals the high (or low) byte of a code exactly when k is that byte. -/
theorem byte_eq_lane (v : BitVec 32) (n : Nat) (hn : n < 256) (hv : v.toNat = n) (k : Fin 256) :
    v = BitVec.ofNat 32 k.val ↔ n = k.val := by
  constructor
  · intro e
    have := congrArg BitVec.toNat e
    rw [hv, BitVec.toNat_ofNat, Nat.mod_eq_of_lt (by have := k.isLt; omega)] at this
    exact this
  · intro e
    apply BitVec.eq_of_toNat_eq
    rw [hv, BitVec.toNat_ofNat, Nat.mod_eq_of_lt (by have := k.isLt; omega)]
    exact e

end Cert.Words
-- ==== Proof.Select.lean ====
/-
  Selecting one entry of a table with two one-hot vectors, over the extended reals.

  A row of a 0/1 matrix with a single one, multiplied into a table, returns that row of the table: every other
  product is zero times an entry, and zero times ANY extended real is zero, so no finiteness is asked of the table.
  A lane sum against a second one-hot vector then returns one entry of that row. Two such products added before the
  lane sum return the sum of the two tables' entries. Beside this: a matrix product into a zero accumulator and a sum
  over the lanes of a row, each read at an index as a plain finite sum.
-/
import Idealize.ShloMosaic.PureOps.Ideal.Laws
import Idealize.ShloMosaic.Lib.ValueIdx
import Idealize.ShloMosaic.Lib.StackMember

noncomputable section

namespace Cert.Select

open Idealize.ShloMosaic Idealize.ShloMosaic.ValueIdx
open scoped BigOperators

/-- A one-hot row against a column: the sum of (one at position h, zero elsewhere) times A is A at h. -/
theorem sum_onehot_mul {n : Nat} (h : Fin n) (A : Fin n → EReal) :
    ∑ k : Fin n, (if h = k then (1 : EReal) else 0) * A k = A h := by
  rw [Finset.sum_eq_single h (fun b _ hb => by rw [if_neg (Ne.symm hb), zero_mul])
    (fun hh => absurd (Finset.mem_univ h) hh), if_pos rfl, one_mul]

/-- A row against a one-hot column. -/
theorem sum_mul_onehot {n : Nat} (l : Fin n) (U : Fin n → EReal) :
    ∑ j : Fin n, U j * (if l = j then (1 : EReal) else 0) = U l := by
  rw [Finset.sum_eq_single l (fun b _ hb => by rw [if_neg (Ne.symm hb), mul_zero])
    (fun hh => absurd (Finset.mem_univ l) hh), if_pos rfl, mul_one]

/-- THE SELECTION: two tables A and B, each reduced by the one-hot row at h, added, multiplied lane by lane with the
    one-hot vector at l and summed over the lanes, give A h l + B h l. -/
theorem select_two {n : Nat} (h l : Fin n) (A B : Fin n → Fin n → EReal) :
    ∑ j : Fin n, ((∑ k : Fin n, (if h = k then (1 : EReal) else 0) * A k j)
        + (∑ k : Fin n, (if h = k then (1 : EReal) else 0) * B k j)) * (if l = j then (1 : EReal) else 0)
      = A h l + B h l := by
  have e : ∀ j : Fin n, (∑ k : Fin n, (if h = k then (1 : EReal) else 0) * A k j)
      + (∑ k : Fin n, (if h = k then (1 : EReal) else 0) * B k j) = A h j + B h j := fun j => by
    rw [sum_onehot_mul h (fun k => A k j), sum_onehot_mul h (fun k => B k j)]
  rw [Finset.sum_congr rfl (fun j _ => by rw [e j])]
  exact sum_mul_onehot l (fun j => A h j + B h j)

/-- A real number minus itself is zero (in the extended reals this fails at the infinities). -/
theorem sub_self_real (r : ℝ) : (r : EReal) - (r : EReal) = 0 := by
  rw [← EReal.coe_sub, sub_self, EReal.coe_zero]

/-- The product of an m×k by a k×n matrix into the zero accumulator, read at an index, is the sum over the contracted
    coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- Row r of an m×n array with its second coordinate put back: the index (r, l). -/
theorem lift_row {m n : Nat} (h : (⟨2, ![m, n]⟩ : Shape).Reduces [1] ⟨1, ![m]⟩) (r : Fin m) (l : Fin n) :
    h.lift (ix1 r) l = ix2 r l := by
  funext a
  apply Fin.ext
  match a with
  | ⟨0, h0⟩ =>
    show Shape.Reduces.liftVal h (ix1 r) l.val ⟨0, h0⟩ = r.val
    unfold Shape.Reduces.liftVal
    have e1 : ¬ ((⟨0, h0⟩ : Fin (⟨2, ![m, n]⟩ : Shape).rank).val = (1 : Fin (⟨2, ![m, n]⟩ : Shape).rank).val) :=
      fun hc => Nat.zero_ne_one hc
    have e2 : (⟨0, h0⟩ : Fin (⟨2, ![m, n]⟩ : Shape).rank).val < (1 : Fin (⟨2, ![m, n]⟩ : Shape).rank).val :=
      Nat.zero_lt_one
    rw [dif_neg e1, dif_pos e2]
  | ⟨1, h1⟩ =>
    show Shape.Reduces.liftVal h (ix1 r) l.val ⟨1, h1⟩ = l.val
    unfold Shape.Reduces.liftVal
    rw [dif_pos (show (⟨1, h1⟩ : Fin (⟨2, ![m, n]⟩ : Shape).rank).val = (1 : Fin (⟨2, ![m, n]⟩ : Shape).rank).val from rfl)]

/-- The sum over the lanes of row r of an m×n array: the reduction over axis 1 from the zero word, read at r. -/
theorem lane_sum {m n : Nat} (src : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (r : Fin m) :
    multiReduction .add [1] ⟨1, ![m]⟩ src 0x00000000#32 h hφ hacc (ix1 r) = ∑ l : Fin n, src (ix2 r l) := by
  refine (Ideal.multiReduction_add_single src 0x00000000#32 h hφ hacc (ix1 r)).trans ?_
  show ∑ l : Fin n, src (h.lift (ix1 r) l) = _
  exact Finset.sum_congr rfl fun l _ => congrArg src (lift_row h r l)

end Cert.Select

end
-- ==== Proof.Spec.lean ====
/-
  The function both programs compute.

  Row b of the digit array holds sixteen words, each 0 or 1 on the inputs the claim is about. Its CODE is the sum over
  the sixteen positions k of digit k times the weight 2^(15-k), in wrapping 32-bit arithmetic: the row read as a binary
  numeral, most significant digit first. The code names a row of the 65536-row table (read signed and clamped into the
  table, which changes nothing for a code below 2^16), and each of the two results holds, at row b, one column of
  that table row.
-/
import Idealize.ShloMosaic.PureOps
import Idealize.ShloMosaic.PureOps.Reduce
import Idealize.ShloMosaic.Lib.ValueIdx
import proofs.«417682_j17712445129393_3_alg».proof.Proof.Words
import proofs.«417682_j17712445129393_3_alg».proof.Proof.Select

noncomputable section

namespace Cert.Spec

open Idealize.ShloMosaic Idealize.ShloMosaic.ValueIdx
open scoped BigOperators

/-- The weight of digit k: 2^(15-k), as a word. -/
def weight (k : Fin 16) : BitVec 32 := BitVec.ofNat 32 (2 ^ (15 - k.val))

theorem weight_toNat (k : Fin 16) : (weight k).toNat = 2 ^ (15 - k.val) := by
  revert k; decide

/-- The code of row b against any sixteen weights: the wrapping sum of digit times weight. -/
def codeWith (pw : Fin 16 → BitVec 32) (x1 : IVec ⟨2, ![2097152, 16]⟩ 32) (b : Fin 2097152) : BitVec 32 :=
  (Finset.univ : Finset (Fin 16)).fold IntOp.addi 0#32 (fun k => IntOp.muli (x1 (ix2 b k)) (pw k))

/-- The code of row b: the row read as a binary numeral. -/
def code (x1 : IVec ⟨2, ![2097152, 16]⟩ 32) (b : Fin 2097152) : BitVec 32 := codeWith weight x1 b

/-- On binary digits the code is below 2^16. -/
theorem code_lt (x1 : IVec ⟨2, ![2097152, 16]⟩ 32) (hx : ∀ i, x1 i = 0#32 ∨ x1 i = 1#32) (b : Fin 2097152) :
    (code x1 b).toNat < 65536 :=
  Words.code_lt (fun k => x1 (ix2 b k)) weight (fun k => hx _) weight_toNat

/-- The table row a code names: the code read signed, clamped into [0, 65535]. -/
def row (x1 : IVec ⟨2, ![2097152, 16]⟩ 32) (b : Fin 2097152) : Fin 65536 :=
  ⟨min (code x1 b).toInt.toNat (65536 - 1), by omega⟩

/-- On binary digits the row is the code's value. -/
theorem row_val (x1 : IVec ⟨2, ![2097152, 16]⟩ 32) (hx : ∀ i, x1 i = 0#32 ∨ x1 i = 1#32) (b : Fin 2097152) :
    (row x1 b).val = (code x1 b).toNat :=
  Words.clamp_row _ (code_lt x1 hx b)

/-- RESULT d (d = 0, 1): at row b, column d of the table row that row b's code names. -/
def G (x1 : IVec ⟨2, ![2097152, 16]⟩ 32) (x2 : (⟨2, ![65536, 2]⟩ : Shape).Idx → EReal) (d : Fin 2) :
    (⟨2, ![2097152, 1]⟩ : Shape).Idx → EReal :=
  fun i => x2 (ix2 (row x1 (i 0)) d)

/-- A sum of 32-bit words over the sixteen columns of a two-axis array, read at row b: the fold of word addition over the
    columns from the initial word. -/
theorem row_fold {R : Nat} {u : Shape} (x : IVec ⟨2, ![R, 16]⟩ 32) (init : IVec u 32)
    (h' : (⟨2, ![R, 16]⟩ : Shape).ReducesTo [1] ⟨1, ![R]⟩) (h : (⟨2, ![R, 16]⟩ : Shape).Reduces [1] ⟨1, ![R]⟩)
    (hu : 0 < u.numel) (b : Fin R) :
    Host.reduce IntOp.addi x init h' hu (ix1 b)
      = (Finset.univ : Finset (Fin 16)).fold IntOp.addi (init (Shape.Idx.first hu)) (fun k => x (ix2 b k)) := by
  rw [Host.reduce_eq_fold_single IntOp.addi x init h' h hu (ix1 b)]
  show (Finset.univ : Finset (Fin 16)).fold IntOp.addi _ (fun k => x (h.lift (ix1 b) k)) = _
  exact Finset.fold_congr fun k _ => congrArg x (Select.lift_row h b k)

end Cert.Spec

end
-- ==== Proof.Gather.lean ====
/-
  Taking rows of a table: the gather that indexing a two-axis table by a column of row numbers lowers to.

  The table has N rows of C entries, the start indices are an R×1 column, the result has R rows of C entries. Result
  entry (p, q) is the table's entry in column q of the row whose number is start index p read as a signed integer and
  clamped into [0, N - 1].
-/
import Idealize.ShloMosaic.PureOps
import Idealize.ShloMosaic.Lib.ValueIdx

noncomputable section

namespace Cert.Gather

open Idealize.ShloMosaic Idealize.ShloMosaic.ValueIdx

variable {α : Type}

/-- The dimension numbers of a row take: one offset axis (the result's second), the table's first axis collapsed and
    named by the start index, slices of one row. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (p, q): the table at column q of the row named by start index p, read signed and clamped. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N R C wf) x idx (ix2 p q)
      = x (ix2 ⟨min (idx (ix2 p ⟨0, Nat.one_pos⟩)).toInt.toNat (N - 1), by omega⟩ q) := by
  unfold Host.gather
  congr 1
  funext a
  refine Fin.ext ?_
  match a with
  | ⟨0, _⟩ =>
    show (rowDims N R C wf).start (ix2 p q) idx 0 + (rowDims N R C wf).batchCoord (ix2 p q) 0
      + (rowDims N R C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p q) ⟨List.idxOf (0 : Fin 2) (rowDims N R C wf).startIndexMap,
        List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    show (rowDims N R C wf).start (ix2 p q) idx 1 + (rowDims N R C wf).batchCoord (ix2 p q) 1
      + (rowDims N R C wf).offCoord (ix2 p q) 1 = q.val
    rw [GatherDims.batchCoord_eq_zero _ _ _ List.not_mem_nil]
    have hst : (rowDims N R C wf).start (ix2 p q) idx 1 = 0 := by
      unfold GatherDims.start
      rw [dif_neg (show (1 : Fin 2) ∉ (rowDims N R C wf).startIndexMap from (by decide : (1 : Fin 2) ∉ ([0] : List (Fin 2))))]
    rw [hst]
    simp only [Nat.add_zero, Nat.zero_add]
    have hk : (1 : Fin 2) ∈ (rowDims N R C wf).sKept := (GatherDims.mem_sKept _ _).mpr ⟨(by decide : (1 : Fin 2) ∉ ([0] : List (Fin 2))), List.not_mem_nil⟩
    unfold GatherDims.offCoord
    rw [dif_pos hk]
    rfl

end Cert.Gather

end
-- ==== Proof.RefValue.lean ====
/-
  What the reference computes, index by index.

  The reference multiplies each digit by its weight, sums each row in 32-bit words, adds 65536 to a negative sum, and
  takes the table row so named. The sixteen weights, computed by the program as powers of two by repeated squaring,
  are the words 2^15, …, 2^0; so the row sum is the row's code, on binary digits it is not negative, and each result
  holds at row b one column of the table row the code names.
-/
import proofs.«417682_j17712445129393_3_alg».proof.Proof.Gen.ReferenceIdeal.Read
import proofs.«417682_j17712445129393_3_alg».proof.Proof.Spec
import proofs.«417682_j17712445129393_3_alg».proof.Proof.Gather

noncomputable section

namespace Cert.RefValue

open Cert.ReferenceIdeal Cert.ReferenceIdeal.Gen Cert.ReferenceIdeal.Read
open Idealize.ShloMosaic Idealize.ShloMosaic.ValueIdx

/-- THE WEIGHTS: position k of the program's vector of powers is the word 2^(15-k). -/
theorem weights_eval : ∀ k : Fin 16, val_main_v55 (F := Ideal) (ix1 k) = Spec.weight k := by
  decide +kernel

/-- The row sum is the row's code. -/
theorem sum_eq (x1 : IVec S2097152x16 32) (b : Fin 2097152) :
    val_main_v62 (F := Ideal) x1 (ix1 b) = Spec.code x1 b := by
  have hred : (⟨2, ![2097152, 16]⟩ : Shape).Reduces [1] ⟨1, ![2097152]⟩ := by decide
  refine (Spec.row_fold (R := 2097152) (val_main_v61 (F := Ideal) x1) (val_main_c_21 (F := Ideal))
    reducesTo_S2097152x16_S2097152_d1 hred h_S_ b).trans ?_
  show Finset.fold IntOp.addi 0#32 (fun k => val_main_v61 (F := Ideal) x1 (ix2 b k)) Finset.univ
    = Finset.fold IntOp.addi 0#32 (fun k => IntOp.muli (x1 (ix2 b k)) (Spec.weight k)) Finset.univ
  refine Finset.fold_congr fun k _ => ?_
  rw [val_main_v61_apply, val_main_v60_apply, val_main_v59_apply]
  have hi : idx_main_v59 (idx_main_v60 (ix2 b k)) = ix1 k := by
    funext a; match a with | ⟨0, _⟩ => rfl
  rw [hi, weights_eval]

/-- The start index of row b is the row's code: on binary digits the sum is not negative, so nothing is added. -/
theorem start_eq (x1 : IVec S2097152x16 32) (hx : ∀ i, x1 i = 0#32 ∨ x1 i = 1#32) (b : Fin 2097152) :
    val_main_v68 (F := Ideal) x1 (ix2 b ⟨0, Nat.one_pos⟩) = Spec.code x1 b := by
  have hi : idx_main_v68 (ix2 b (⟨0, Nat.one_pos⟩ : Fin 1)) = ix1 b := by
    funext a; match a with | ⟨0, _⟩ => rfl
  rw [val_main_v68_apply, hi, val_main_v67_apply, val_main_v64_apply, val_main_v63_apply, val_main_c_22_apply, sum_eq]
  exact Words.select_nonneg _ (Spec.code_lt x1 hx b) _ _

/-- The gathered array holds, at (b, d), column d of the table row that row b's code names. -/
theorem gathered (x1 : IVec S2097152x16 32) (x2 : FVec Ideal S65536x2 .f32) (hx : ∀ i, x1 i = 0#32 ∨ x1 i = 1#32)
    (b : Fin 2097152) (d : Fin 2) :
    val_main_v69 (F := Ideal) x1 x2 (ix2 b d) = x2 (ix2 (Spec.row x1 b) d) := by
  unfold val_main_v69
  have hd : gather_S65536x2_S2097152x1_S2097152x2_1_0_n_n_0_1_12
      = Gather.rowDims 65536 2097152 2 gather_S65536x2_S2097152x1_S2097152x2_1_0_n_n_0_1_12_wf := rfl
  rw [hd, Gather.gather_rows_apply (by decide)]
  refine congrArg x2 (congrArg (fun r => ix2 r d) (Fin.ext ?_))
  show min (val_main_v68 (F := Ideal) x1 (ix2 b ⟨0, Nat.one_pos⟩)).toInt.toNat (65536 - 1) = _
  rw [start_eq x1 hx b]
  rfl

/-- RESULT 0 of the reference is the common function at column 0. -/
theorem result0 (x1 : IVec S2097152x16 32) (x2 : FVec Ideal S65536x2 .f32) (hx : ∀ i, x1 i = 0#32 ∨ x1 i = 1#32) :
    val_main_v70 (F := Ideal) x1 x2 = Spec.G x1 x2 0 := by
  funext i
  obtain ⟨b, z, rfl⟩ : ∃ (b : Fin 2097152) (z : Fin 1), i = ix2 b z := ⟨i 0, i 1, eq_ix2 i⟩
  have hi : idx_main_v70 (ix2 b z) = ix2 b (0 : Fin 2) := by
    funext a
    match a with
    | ⟨0, _⟩ => rfl
    | ⟨1, _⟩ => exact Fin.ext (by show z.val = 0; omega)
  rw [val_main_v70_apply, hi]
  exact gathered x1 x2 hx b 0

/-- RESULT 1 of the reference is the common function at column 1. -/
theorem result1 (x1 : IVec S2097152x16 32) (x2 : FVec Ideal S65536x2 .f32) (hx : ∀ i, x1 i = 0#32 ∨ x1 i = 1#32) :
    val_main_v71 (F := Ideal) x1 x2 = Spec.G x1 x2 1 := by
  funext i
  obtain ⟨b, z, rfl⟩ : ∃ (b : Fin 2097152) (z : Fin 1), i = ix2 b z := ⟨i 0, i 1, eq_ix2 i⟩
  have hi : idx_main_v71 (ix2 b z) = ix2 b (1 : Fin 2) := by
    funext a
    match a with
    | ⟨0, _⟩ => rfl
    | ⟨1, _⟩ => exact Fin.ext (by show 1 + z.val = 1; omega)
  rw [val_main_v71_apply, hi]
  exact gathered x1 x2 hx b 1

end Cert.RefValue

end
-- ==== Proof.BodyValue.lean ====
/-
  What the kernel body stores, entry by entry.

  For each of the 4096 rows of a block the body splits the row's index word w into its high byte (w shifted right by
  eight) and its low byte (w masked with 255), builds the 256-lane one-hot vector of each, multiplies the high one-hot
  matrix into two 256×256 planes, adds the two products, multiplies lane by lane with the low one-hot vector and sums
  the lanes. For a word below 2^16 both bytes are lane numbers, and the stored value is the sum of the two planes'
  entries at (high byte, low byte).
-/
import proofs.«417682_j17712445129393_3_alg».proof.Proof.Gen.KernelIdeal.Skeleton
import proofs.«417682_j17712445129393_3_alg».proof.Proof.Select
import proofs.«417682_j17712445129393_3_alg».proof.Proof.Words
import Idealize.ShloMosaic.Lib.Pipeline.Value
import Idealize.ShloMosaic.Lib.ValueIdx

noncomputable section

namespace Cert.BodyValue

open Cert.KernelIdeal Cert.KernelIdeal.Gen
open Idealize.ShloMosaic Idealize.ShloMosaic.ValueIdx
open scoped BigOperators

/-- The high byte of a word below 2^16, as a lane number. -/
def hiLane (w : BitVec 32) (h : w.toNat < 65536) : Fin 256 := ⟨w.toNat / 256, by omega⟩
/-- The low byte of a word, as a lane number. -/
def loLane (w : BitVec 32) : Fin 256 := ⟨w.toNat % 256, Nat.mod_lt _ (by decide)⟩

/-- Each row's high byte along 256 lanes. -/
def hiVec (v0 : Vec Ideal S4096x1 .i32) : IVec S4096x256 32 :=
  broadcastTo S4096x256 (shrsi (shapeCast S4096x1 v0 shapeCasts_S4096x1_S4096x1) (broadcast S4096x1 8#32)) broadcasts_S4096x1_S4096x256
/-- Each row's low byte along 256 lanes. -/
def loVec (v0 : Vec Ideal S4096x1 .i32) : IVec S4096x256 32 :=
  broadcastTo S4096x256 (andi (shapeCast S4096x1 v0 shapeCasts_S4096x1_S4096x1) (broadcast S4096x1 255#32)) broadcasts_S4096x1_S4096x256
/-- The lane numbers 0 … 255 in every row. -/
def laneVec : IVec S4096x256 32 :=
  broadcastTo S4096x256 (iota .tc S1x256 32 [1] iota_S1x256_d1_w32) broadcasts_S1x256_S4096x256

theorem pay3_eq (v0 : Vec Ideal S4096x1 .i32) :
    k0_pay3 (F := Ideal) v0 = truncf .bf16 (sitofp .f32 (extui 32 (cmpi .eq (hiVec v0) laneVec) natLt_1_32)) bitsLt_bf16_f32 := rfl
theorem pay4_eq (v0 : Vec Ideal S4096x1 .i32) :
    k0_pay4 (F := Ideal) v0 = sitofp .f32 (extui 32 (cmpi .eq (loVec v0) laneVec) natLt_1_32) := rfl

/-- A column broadcast along the lanes reads its row's entry. -/
theorem col_bcast (x : IVec S4096x1 32) (r : Fin 4096) (k : Fin 256) :
    broadcastTo S4096x256 x broadcasts_S4096x1_S4096x256 (ix2 r k) = x (ix2 r (⟨0, Nat.one_pos⟩ : Fin 1)) := by
  refine broadcastTo_apply x broadcasts_S4096x1_S4096x256 (ix2 r k) (ix2 r (⟨0, Nat.one_pos⟩ : Fin 1)) ?_
  intro a
  match a with
  | ⟨0, _⟩ => rfl
  | ⟨1, _⟩ => rfl

theorem laneVec_apply (r : Fin 4096) (k : Fin 256) : laneVec (ix2 r k) = BitVec.ofNat 32 k.val := by
  unfold laneVec
  refine (broadcastTo_apply _ broadcasts_S1x256_S4096x256 (ix2 r k) (ix2 (⟨0, Nat.one_pos⟩ : Fin 1) k) ?_).trans ?_
  · intro a
    match a with
    | ⟨0, _⟩ => rfl
    | ⟨1, _⟩ => rfl
  · exact iota_single_apply .tc S1x256 32 1 iota_S1x256_d1_w32 (ix2 (⟨0, Nat.one_pos⟩ : Fin 1) k)

theorem hiVec_apply (v0 : Vec Ideal S4096x1 .i32) (r : Fin 4096) (k : Fin 256) :
    hiVec v0 (ix2 r k) = IntOp.shrsi .vector (v0 (ix2 r (⟨0, Nat.one_pos⟩ : Fin 1))) 8#32 := by
  unfold hiVec
  rw [col_bcast, shapeCast_self]
  rfl

theorem loVec_apply (v0 : Vec Ideal S4096x1 .i32) (r : Fin 4096) (k : Fin 256) :
    loVec v0 (ix2 r k) = IntOp.andi (v0 (ix2 r (⟨0, Nat.one_pos⟩ : Fin 1))) 255#32 := by
  unfold loVec
  rw [col_bcast, shapeCast_self]
  rfl

/-- THE HIGH ONE-HOT ROW: for a word below 2^16, lane k holds one where k is the high byte and zero elsewhere. -/
theorem pay3_apply (v0 : Vec Ideal S4096x1 .i32) (r : Fin 4096) (k : Fin 256)
    (hw : (v0 (ix2 r (⟨0, Nat.one_pos⟩ : Fin 1))).toNat < 65536) :
    k0_pay3 (F := Ideal) v0 (ix2 r k) = if hiLane (v0 (ix2 r (⟨0, Nat.one_pos⟩ : Fin 1))) hw = k then (1 : EReal) else 0 := by
  rw [pay3_eq]
  show ((((IntOp.cmpi .eq (hiVec v0 (ix2 r k)) (laneVec (ix2 r k))).setWidth 32).toInt : ℝ) : EReal) = _
  rw [hiVec_apply, laneVec_apply, Words.onehot]
  refine if_congr ?_ rfl rfl
  rw [Words.byte_eq_lane _ _ (hiLane _ hw).isLt (Words.high_byte _ hw) k]
  exact Fin.ext_iff.symm

/-- THE LOW ONE-HOT ROW. -/
theorem pay4_apply (v0 : Vec Ideal S4096x1 .i32) (r : Fin 4096) (l : Fin 256) :
    k0_pay4 (F := Ideal) v0 (ix2 r l) = if loLane (v0 (ix2 r (⟨0, Nat.one_pos⟩ : Fin 1))) = l then (1 : EReal) else 0 := by
  rw [pay4_eq]
  show ((((IntOp.cmpi .eq (loVec v0 (ix2 r l)) (laneVec (ix2 r l))).setWidth 32).toInt : ℝ) : EReal) = _
  rw [loVec_apply, laneVec_apply, Words.onehot]
  refine if_congr ?_ rfl rfl
  rw [Words.byte_eq_lane _ _ (loLane _).isLt (Words.low_byte _) l]
  exact Fin.ext_iff.symm

/-- A 1×1×256×256 block viewed as a 256×256 plane reads the block at (0, 0, k, l). -/
theorem plane_cast (A : Vec Ideal S1x1x256x256 .bf16) (k l : Fin 256) :
    shapeCast S256x256 A shapeCasts_S1x1x256x256_S256x256 (ix2 k l)
      = A (ix4 (⟨0, Nat.one_pos⟩ : Fin 1) (⟨0, Nat.one_pos⟩ : Fin 1) k l) := by
  refine shapeCast_apply A shapeCasts_S1x1x256x256_S256x256 (ix2 k l)
    (ix4 (⟨0, Nat.one_pos⟩ : Fin 1) (⟨0, Nat.one_pos⟩ : Fin 1) k l) ?_
  rw [Shape.rowMajor_val_two, Shape.rowMajor_val_four]
  show ((0 * 1 + 0) * 256 + k.val) * 256 + l.val = k.val * 256 + l.val
  omega

/-- The one-hot matrix times a plane, at (r, l): the plane's entry (h, l), h the lane where row r of the matrix is one. -/
theorem hot_matmul (oh : FVec Ideal S4096x256 .bf16) (M : FVec Ideal S256x256 .bf16) (r : Fin 4096) (l h : Fin 256)
    (hoh : ∀ k : Fin 256, oh (ix2 r k) = if h = k then (1 : EReal) else 0) :
    matmul dot_S4096x256_S256x256_S4096x256_1_0_0_1_n_n none oh M (constant (F := Ideal) S4096x256 .f32 0x00000000#32) (ix2 r l)
      = M (ix2 h l) := by
  have hD : dot_S4096x256_S256x256_S4096x256_1_0_0_1_n_n = DotDims.plain 4096 256 256 := rfl
  refine (congrArg (fun D => FloatOps.matmul D none oh M (constant (F := Ideal) S4096x256 .f32 0x00000000#32) (ix2 r l)) hD).trans ?_
  refine (Select.matmul_plain_zero_apply none oh M r l).trans ?_
  rw [Finset.sum_congr rfl (fun k _ => by rw [hoh k])]
  exact Select.sum_onehot_mul h (fun k => M (ix2 k l))

/-- THE STORED COLUMN at row r: with the high one-hot row at h and the low one-hot row at l, the lane sum of
    (one-hot × plane A + one-hot × plane B) · low one-hot is A (h, l) + B (h, l). -/
theorem stored (ohHi : FVec Ideal S4096x256 .bf16) (ohLo : FVec Ideal S4096x256 .f32) (MA MB : FVec Ideal S256x256 .bf16)
    (r : Fin 4096) (h l : Fin 256)
    (hhi : ∀ k : Fin 256, ohHi (ix2 r k) = if h = k then (1 : EReal) else 0)
    (hlo : ∀ j : Fin 256, ohLo (ix2 r j) = if l = j then (1 : EReal) else 0) :
    shapeCast S4096x1
        (multiReduction (F := Ideal) .add [1] S4096
          (mulf (addf (matmul dot_S4096x256_S256x256_S4096x256_1_0_0_1_n_n none ohHi MA (constant (F := Ideal) S4096x256 .f32 0x00000000#32))
            (matmul dot_S4096x256_S256x256_S4096x256_1_0_0_1_n_n none ohHi MB (constant (F := Ideal) S4096x256 .f32 0x00000000#32))) ohLo)
          0x00000000#32 reduces_S4096x256_S4096 (.inl rfl) rfl)
        shapeCasts_S4096_S4096x1 (ix2 r (⟨0, Nat.one_pos⟩ : Fin 1))
      = MA (ix2 h l) + MB (ix2 h l) := by
  refine (shapeCast_apply _ shapeCasts_S4096_S4096x1 (ix2 r (⟨0, Nat.one_pos⟩ : Fin 1)) (ix1 r) ?_).trans ?_
  · rw [Shape.rowMajor_val_one, Shape.rowMajor_val_two]
    show r.val = r.val * 1 + 0
    omega
  refine (Select.lane_sum _ reduces_S4096x256_S4096 (.inl rfl) rfl r).trans ?_
  have e : ∀ j : Fin 256,
      (mulf (addf (matmul dot_S4096x256_S256x256_S4096x256_1_0_0_1_n_n none ohHi MA (constant (F := Ideal) S4096x256 .f32 0x00000000#32))
        (matmul dot_S4096x256_S256x256_S4096x256_1_0_0_1_n_n none ohHi MB (constant (F := Ideal) S4096x256 .f32 0x00000000#32))) ohLo) (ix2 r j)
        = (MA (ix2 h j) + MB (ix2 h j)) * (if l = j then (1 : EReal) else 0) := fun j => by
    show (matmul dot_S4096x256_S256x256_S4096x256_1_0_0_1_n_n none ohHi MA (constant (F := Ideal) S4096x256 .f32 0x00000000#32) (ix2 r j)
        + matmul dot_S4096x256_S256x256_S4096x256_1_0_0_1_n_n none ohHi MB (constant (F := Ideal) S4096x256 .f32 0x00000000#32) (ix2 r j))
        * ohLo (ix2 r j) = _
    rw [hot_matmul ohHi MA r j h hhi, hot_matmul ohHi MB r j h hhi, hlo j]
  rw [Finset.sum_congr rfl (fun j _ => e j)]
  exact Select.sum_mul_onehot l (fun j => MA (ix2 h j) + MB (ix2 h j))

/-- COLUMN 0 of the block: at row r, the two planes of table column 0 at (high byte, low byte) of the row's word. -/
theorem pay5_select (v0 : Vec Ideal S4096x1 .i32) (A B : Vec Ideal S1x1x256x256 .bf16) (r : Fin 4096)
    (hw : (v0 (ix2 r (⟨0, Nat.one_pos⟩ : Fin 1))).toNat < 65536) :
    k0_pay5 (F := Ideal) v0 A B (ix2 r (⟨0, Nat.one_pos⟩ : Fin 1))
      = A (ix4 (⟨0, Nat.one_pos⟩ : Fin 1) (⟨0, Nat.one_pos⟩ : Fin 1) (hiLane _ hw) (loLane (v0 (ix2 r (⟨0, Nat.one_pos⟩ : Fin 1)))))
        + B (ix4 (⟨0, Nat.one_pos⟩ : Fin 1) (⟨0, Nat.one_pos⟩ : Fin 1) (hiLane _ hw) (loLane (v0 (ix2 r (⟨0, Nat.one_pos⟩ : Fin 1))))) := by
  refine (stored (k0_pay3 (F := Ideal) v0) (k0_pay4 (F := Ideal) v0)
    (shapeCast S256x256 A shapeCasts_S1x1x256x256_S256x256) (shapeCast S256x256 B shapeCasts_S1x1x256x256_S256x256)
    r (hiLane _ hw) (loLane _) (fun k => pay3_apply v0 r k hw) (fun j => pay4_apply v0 r j)).trans ?_
  rw [plane_cast, plane_cast]

/-- COLUMN 1 of the block, likewise, from the values the first part of the body hands on. -/
theorem pay1_select (v0 : Vec Ideal S4096x1 .i32) (A B : Vec Ideal S1x1x256x256 .bf16) (r : Fin 4096)
    (hw : (v0 (ix2 r (⟨0, Nat.one_pos⟩ : Fin 1))).toNat < 65536) :
    k0_pay1 (F := Ideal) (k0_pay3 (F := Ideal) v0) (k0_pay4 (F := Ideal) v0) (k0_pay6 (F := Ideal) A) B (ix2 r (⟨0, Nat.one_pos⟩ : Fin 1))
      = A (ix4 (⟨0, Nat.one_pos⟩ : Fin 1) (⟨0, Nat.one_pos⟩ : Fin 1) (hiLane _ hw) (loLane (v0 (ix2 r (⟨0, Nat.one_pos⟩ : Fin 1)))))
        + B (ix4 (⟨0, Nat.one_pos⟩ : Fin 1) (⟨0, Nat.one_pos⟩ : Fin 1) (hiLane _ hw) (loLane (v0 (ix2 r (⟨0, Nat.one_pos⟩ : Fin 1))))) := by
  refine (stored (k0_pay3 (F := Ideal) v0) (k0_pay4 (F := Ideal) v0)
    (shapeCast S256x256 A shapeCasts_S1x1x256x256_S256x256) (shapeCast S256x256 B shapeCasts_S1x1x256x256_S256x256)
    r (hiLane _ hw) (loLane _) (fun k => pay3_apply v0 r k hw) (fun j => pay4_apply v0 r j)).trans ?_
  rw [plane_cast, plane_cast]

end Cert.BodyValue

end
-- ==== Proof.BlockValue.lean ====
/-
  The block the body leaves, as one function of the block's two inputs.

  The body stores the block's two columns one after the other. Entry (r, d) of the block is the sum of the two planes
  of table column d at (high byte, low byte) of row r's index word: the column-d planes are the slabs (0, d) and (1, d)
  of the table stack.
-/
import proofs.«417682_j17712445129393_3_alg».proof.Proof.Gen.KernelIdeal.Frame
import proofs.«417682_j17712445129393_3_alg».proof.Proof.BodyValue
import Idealize.ShloMosaic.Lib.Pipeline.Value

noncomputable section

namespace Cert.BlockValue

open Cert.KernelIdeal Cert.KernelIdeal.Gen
open Idealize.ShloMosaic Idealize.ShloMosaic.ValueIdx

theorem hz2 : (![0, 0] : Fin 2 → Nat) = fun _ => 0 := funext fun a => by fin_cases a <;> rfl

/-- Entry (r, d) of the block from the index column block x0 and the table stack tb. -/
def blockAt (x0 : Vec Ideal S4096x1 .i32) (tb : Vec Ideal S2x2x256x256 .bf16)
    (hw : ∀ r : Fin 4096, (x0 (ix2 r (⟨0, Nat.one_pos⟩ : Fin 1))).toNat < 65536) (r : Fin 4096) (d : Fin 2) : EReal :=
  tb (ix4 (0 : Fin 2) d (BodyValue.hiLane _ (hw r)) (BodyValue.loLane (x0 (ix2 r (⟨0, Nat.one_pos⟩ : Fin 1)))))
    + tb (ix4 (1 : Fin 2) d (BodyValue.hiLane _ (hw r)) (BodyValue.loLane (x0 (ix2 r (⟨0, Nat.one_pos⟩ : Fin 1)))))

/-- A load of the slab (s, d) of the stack, read at (0, 0, h, l), is the stack at (s, d, h, l). -/
theorem ld_plane (tb : Vec Ideal S2x2x256x256 .bf16) (s d : Fin 2)
    (inb : ∀ a, (![s.val, d.val, 0, 0] : Fin 4 → Nat) a + S1x1x256x256.size a ≤ S2x2x256x256.size a) (h l : Fin 256) :
    View.ld tb (Rect.unit (s := S2x2x256x256) ![s.val, d.val, 0, 0] S1x1x256x256.size inb)
        (ix4 (⟨0, Nat.one_pos⟩ : Fin 1) (⟨0, Nat.one_pos⟩ : Fin 1) h l)
      = tb (ix4 s d h l) := by
  show tb _ = tb _
  congr 1
  funext a
  apply Fin.ext
  match a with
  | ⟨0, _⟩ => show s.val + 1 * 0 = s.val; omega
  | ⟨1, _⟩ => show d.val + 1 * 0 = d.val; omega
  | ⟨2, _⟩ => show 0 + 1 * h.val = h.val; omega
  | ⟨3, _⟩ => show 0 + 1 * l.val = l.val; omega

/-- The second store's piece (column 1 of the block) is column 1 of blockAt. -/
theorem piece1 (x0 : Vec Ideal S4096x1 .i32) (tb : Vec Ideal S2x2x256x256 .bf16)
    (hw : ∀ r : Fin 4096, (x0 (ix2 r (⟨0, Nat.one_pos⟩ : Fin 1))).toNat < 65536) (x : (r0_6).shape.Idx) :
    k0_pay1 (F := Ideal) (k0_pay3 (View.ld x0 r0_0)) (k0_pay4 (View.ld x0 r0_0)) (k0_pay6 (View.ld tb r0_4)) (View.ld tb r0_5) x
      = blockAt x0 tb hw (r0_6.emb x 0) (r0_6.emb x 1) := by
  obtain ⟨r, z, rfl⟩ : ∃ (r : Fin 4096) (z : Fin 1), x = ix2 r z := ⟨x 0, x 1, eq_ix2 x⟩
  obtain rfl : z = ⟨0, Nat.one_pos⟩ := Subsingleton.elim _ _
  have e0 : (r0_6.emb (ix2 r (⟨0, Nat.one_pos⟩ : Fin 1)) 0 : Fin 4096) = r :=
    Fin.ext (by show 0 + 1 * r.val = r.val; omega)
  have e1 : (r0_6.emb (ix2 r (⟨0, Nat.one_pos⟩ : Fin 1)) 1 : Fin 2) = (1 : Fin 2) :=
    Fin.ext (by show 1 + 1 * 0 = 1; rfl)
  rw [e0, e1, View.ld_unit_zero (S := S4096x1) hz2]
  refine (BodyValue.pay1_select x0 (View.ld tb r0_4) (View.ld tb r0_5) r (hw r)).trans ?_
  exact congrArg₂ (· + ·) (ld_plane tb 0 1 _ _ _) (ld_plane tb 1 1 _ _ _)

/-- The first store's piece (column 0 of the block) is column 0 of blockAt. -/
theorem piece0 (x0 : Vec Ideal S4096x1 .i32) (tb : Vec Ideal S2x2x256x256 .bf16)
    (hw : ∀ r : Fin 4096, (x0 (ix2 r (⟨0, Nat.one_pos⟩ : Fin 1))).toNat < 65536) (x : (r0_3).shape.Idx) :
    k0_pay5 (F := Ideal) (View.ld x0 r0_0) (View.ld tb r0_1) (View.ld tb r0_2) x
      = blockAt x0 tb hw (r0_3.emb x 0) (r0_3.emb x 1) := by
  obtain ⟨r, z, rfl⟩ : ∃ (r : Fin 4096) (z : Fin 1), x = ix2 r z := ⟨x 0, x 1, eq_ix2 x⟩
  obtain rfl : z = ⟨0, Nat.one_pos⟩ := Subsingleton.elim _ _
  have e0 : (r0_3.emb (ix2 r (⟨0, Nat.one_pos⟩ : Fin 1)) 0 : Fin 4096) = r :=
    Fin.ext (by show 0 + 1 * r.val = r.val; omega)
  have e1 : (r0_3.emb (ix2 r (⟨0, Nat.one_pos⟩ : Fin 1)) 1 : Fin 2) = (0 : Fin 2) :=
    Fin.ext (by show 0 + 1 * 0 = 0; rfl)
  rw [e0, e1, View.ld_unit_zero (S := S4096x1) hz2]
  refine (BodyValue.pay5_select x0 (View.ld tb r0_1) (View.ld tb r0_2) r (hw r)).trans ?_
  exact congrArg₂ (· + ·) (ld_plane tb 0 0 _ _ _) (ld_plane tb 1 0 _ _ _)

/-- THE BLOCK: what the body's two stores leave is blockAt, entry by entry. -/
theorem block_eq (x0 : Vec Ideal S4096x1 .i32) (tb : Vec Ideal S2x2x256x256 .bf16)
    (hw : ∀ r : Fin 4096, (x0 (ix2 r (⟨0, Nat.one_pos⟩ : Fin 1))).toNat < 65536) (y : S4096x2.Idx) :
    out0_2 (F := Ideal) x0 tb y = blockAt x0 tb hw (y 0) (y 1) := by
  unfold out0_2
  refine View.canon_apply_of_pieces (Val := Elt Ideal) (S := S4096x2) (e := .f32)
    (fun y : S4096x2.Idx => (blockAt x0 tb hw (y 0) (y 1) : Elt Ideal .f32)) _ ?_ y (cover0_2 _ _ y)
  intro p hp
  rcases List.mem_cons.mp hp with rfl | hp
  · intro x
    exact piece1 x0 tb hw x
  · rcases List.mem_singleton.mp hp with rfl
    intro x
    exact piece0 x0 tb hw x

end Cert.BlockValue

end
-- ==== Proof.KernelHost.lean ====
/-
  What the kernel's pallas call finds in its two operand arrays.

  Before the call the program clamps every digit into [0, 1], multiplies by the weights (the same powers of two the
  reference computes, by the same operations), sums each row and lays the sums out as a column: the INDEX COLUMN. It
  also lays the table out as two planes (one per column of the table) of 256×256, takes that array in the 16-bit
  format, takes the difference of the array and its 16-bit copy in the 16-bit format again, and stacks the two: the
  TABLE STACK. Over the extended reals a change of format is the identity.
-/
import proofs.«417682_j17712445129393_3_alg».proof.Proof.Gen.KernelIdeal.Frame
import proofs.«417682_j17712445129393_3_alg».proof.Proof.Gen.ReferenceIdeal.Read
import Idealize.ShloMosaic.Lib.StableHlo.Run
import Idealize.ShloMosaic.PureOps.Ideal

noncomputable section

namespace Cert.KernelHost

open Cert.KernelIdeal Cert.KernelIdeal.Gen
open Idealize.ShloMosaic Idealize.ShloMosaic.TcCoe Idealize.ShloMosaic.Tactic Idealize.SL.Sem Idealize.ShloMosaic.StableHlo

/-- Every digit clamped into [0, 1]: the smaller of 1 and (the larger of 0 and the digit). -/
def clipped (x1 : IVec S2097152x16 32) : IVec S2097152x16 32 :=
  minsi (broadcastInDim S2097152x16 ![] bcast_S_S2097152x16 (constantI S_ 32 1#32))
    (maxsi (broadcastInDim S2097152x16 ![] bcast_S_S2097152x16 (constantI S_ 32 0#32)) x1)

/-- The index column: the row sums of clamped digit times weight, as a 2097152×1 array. -/
def idxCol (x1 : IVec S2097152x16 32) : IVec S2097152x1 32 :=
  shapeCast S2097152x1
    (Host.reduce IntOp.addi
      (muli (clipped x1)
        (broadcastInDim S2097152x16 ![0, 1] bcast_S1x16_S2097152x16_0_1
          (broadcastInDim S1x16 ![1] bcast_S16_S1x16_1 (Cert.ReferenceIdeal.Read.val_main_v55 (F := Ideal)))))
      (constantI S_ 32 0#32) reducesTo_S2097152x16_S2097152_d1 h_S_)
    shapeCasts_S2097152_S2097152x1

/-- The table as two 256×256 planes, one per column. -/
def planes (x2 : FVec Ideal S65536x2 .f32) : FVec Ideal S2x256x256 .f32 :=
  transpose S2x256x256 [2, 0, 1] (shapeCast S256x256x2 x2 shapeCasts_S65536x2_S256x256x2) transposes_S256x256x2_S2x256x256_2_0_1

/-- The planes in the 16-bit format. -/
def planesHi (x2 : FVec Ideal S65536x2 .f32) : FVec Ideal S2x256x256 .bf16 :=
  truncf .bf16 (planes x2) bitsLt_bf16_f32

/-- What the 16-bit copy misses, in the 16-bit format. -/
def planesLo (x2 : FVec Ideal S65536x2 .f32) : FVec Ideal S2x256x256 .bf16 :=
  truncf .bf16 (subf (planes x2) (extf .f32 (planesHi x2) bitsLt_bf16_f32)) bitsLt_bf16_f32

/-- Two arrays stacked along a new leading axis. -/
def stack2 (a b : FVec Ideal S1x2x256x256 .bf16) : FVec Ideal S2x2x256x256 .bf16 :=
  concatenate S2x2x256x256 0 [⟨S1x2x256x256, a⟩, ⟨S1x2x256x256, b⟩] concatenates_S1x2x256x256_S1x2x256x256_S2x2x256x256_d0

/-- The table stack. -/
def tableStack (x2 : FVec Ideal S65536x2 .f32) : FVec Ideal S2x2x256x256 .bf16 :=
  stack2 (broadcastInDim S1x2x256x256 ![1, 2, 3] bcast_S2x256x256_S1x2x256x256_1_2_3 (planesHi x2))
    (broadcastInDim S1x2x256x256 ![1, 2, 3] bcast_S2x256x256_S1x2x256x256_1_2_3 (planesLo x2))

variable (m : (ℓ : Loc nD τ sig) → Buf (Elt Ideal) ℓ)

set_option maxHeartbeats 4000000 in
/-- The call's first operand array is the index column of the digit array as launched. -/
theorem V_idxCol (c : Dev nD) :
    (V (F := Ideal) m c main_v64 : IVec S2097152x1 32) = idxCol (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
/-- The call's second operand array is the table stack of the table as launched. -/
theorem V_table (c : Dev nD) :
    (V (F := Ideal) m c main_v73 : FVec Ideal S2x2x256x256 .bf16) = tableStack (m ((c : Thread nD τ).loc main_arg2)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  show stack2 _ _ = _
  after_results_simp
  rfl

end Cert.KernelHost

end
-- ==== Proof.KernelArgs.lean ====
/-
  The index column read at a row.

  On binary digits the clamp into [0, 1] changes nothing, so the column's entry at row b is the row's code.
-/
import proofs.«417682_j17712445129393_3_alg».proof.Proof.KernelHost
import proofs.«417682_j17712445129393_3_alg».proof.Proof.RefValue
import Idealize.ShloMosaic.Lib.Pipeline.Value

noncomputable section

namespace Cert.KernelArgs

open Cert.KernelIdeal Cert.KernelIdeal.Gen
open Idealize.ShloMosaic Idealize.ShloMosaic.ValueIdx

/-- On binary digits the clamped array is the array. -/
theorem clipped_eq (x1 : IVec S2097152x16 32) (hx : ∀ i, x1 i = 0#32 ∨ x1 i = 1#32) : KernelHost.clipped x1 = x1 := by
  funext i
  show IntOp.minsi 1#32 (IntOp.maxsi 0#32 (x1 i)) = x1 i
  exact Words.clip_digit _ (hx i)

/-- The index column at row b is the code of row b. -/
theorem idxCol_apply (x1 : IVec S2097152x16 32) (hx : ∀ i, x1 i = 0#32 ∨ x1 i = 1#32) (b : Fin 2097152) :
    KernelHost.idxCol x1 (ix2 b (⟨0, Nat.one_pos⟩ : Fin 1)) = Spec.code x1 b := by
  unfold KernelHost.idxCol
  rw [clipped_eq x1 hx]
  refine (shapeCast_apply _ shapeCasts_S2097152_S2097152x1 (ix2 b (⟨0, Nat.one_pos⟩ : Fin 1)) (ix1 b) ?_).trans
    (RefValue.sum_eq x1 b)
  rw [Shape.rowMajor_val_one, Shape.rowMajor_val_two]
  show b.val = b.val * 1 + 0
  omega

end Cert.KernelArgs

end
-- ==== Proof.TableRead.lean ====
/-
  The table stack read at an index.

  The stack has two planes. Entry (0, d, k, l) of the stack is the table's entry in row 256·k + l, column d: the table
  laid out as 256×256×2, its axes permuted to 2×256×256, and a change of format that is the identity over the
  extended reals. Entry (1, d, k, l) is that same table entry minus itself.
-/
import proofs.«417682_j17712445129393_3_alg».proof.Proof.KernelHost
import Idealize.ShloMosaic.Lib.Pipeline.Value
import Idealize.ShloMosaic.Lib.ValueIdx

noncomputable section

namespace Cert.TableRead

open Cert.KernelIdeal Cert.KernelIdeal.Gen
open Idealize.ShloMosaic Idealize.ShloMosaic.ValueIdx

/-- The planes at (d, k, l): the table at row 256·k + l, column d. -/
theorem planes_apply (x2 : FVec Ideal S65536x2 .f32) (d : Fin 2) (k l : Fin 256) :
    KernelHost.planes x2 (ix3 d k l)
      = x2 (ix2 ⟨256 * k.val + l.val, by have := k.isLt; have := l.isLt; omega⟩ d) := by
  have hk := k.isLt
  have hl := l.isLt
  have hd := d.isLt
  unfold KernelHost.planes
  -- the permutation [2, 0, 1]: the 2×256×256 array at (d, k, l) reads the 256×256×2 array at (k, l, d)
  refine (transpose_apply _ _ _ (ix3 d k l) (ix3 k l d)
    (fun b => match b with | ⟨0, _⟩ => rfl | ⟨1, _⟩ => rfl | ⟨2, _⟩ => rfl)).trans ?_
  -- the reshape keeps the row-major position: (k·256 + l)·2 + d on both sides
  refine shapeCast_apply _ _ (ix3 k l d) (ix2 ⟨256 * k.val + l.val, by have := k.isLt; have := l.isLt; omega⟩ d) ?_
  rw [Shape.rowMajor_val_two, Shape.rowMajor_val_three]
  show (256 * k.val + l.val) * 2 + d.val = (k.val * 256 + l.val) * 2 + d.val
  omega

/-- The stack's two pieces, each with a new leading unit axis, read at (0, d, k, l): the piece's operand at (d, k, l). -/
private theorem lead_apply (p : FVec Ideal S2x256x256 .bf16) (d : Fin 2) (k l : Fin 256) :
    broadcastInDim S1x2x256x256 ![1, 2, 3] bcast_S2x256x256_S1x2x256x256_1_2_3 p (ix4 (0 : Fin 1) d k l)
      = p (ix3 d k l) :=
  broadcastInDim_apply _ _ _ (ix4 (0 : Fin 1) d k l) (ix3 d k l) (fun a => match a with
    | ⟨0, _⟩ => by show d.val = if (2 : Nat) = 1 then 0 else d.val; rfl
    | ⟨1, _⟩ => by show k.val = if (256 : Nat) = 1 then 0 else k.val; rfl
    | ⟨2, _⟩ => by show l.val = if (256 : Nat) = 1 then 0 else l.val; rfl)

/-- Plane 0 of the stack holds the table entries. -/
theorem stack_hi (x2 : FVec Ideal S65536x2 .f32) (d : Fin 2) (k l : Fin 256) :
    KernelHost.tableStack x2 (ix4 (0 : Fin 2) d k l)
      = x2 (ix2 ⟨256 * k.val + l.val, by have := k.isLt; have := l.isLt; omega⟩ d) := by
  unfold KernelHost.tableStack KernelHost.stack2
  -- leading coordinate 0 falls in the first piece, at the same coordinates
  refine (concatenate_pair_apply_left (s₁ := S1x2x256x256) (s₂ := S1x2x256x256) 0 _ _ _ (ix4 (0 : Fin 2) d k l) rfl (ix4 (0 : Fin 1) d k l)
    (fun b => match b with | ⟨0, _⟩ => rfl | ⟨1, _⟩ => rfl | ⟨2, _⟩ => rfl | ⟨3, _⟩ => rfl)).trans ?_
  refine (lead_apply _ d k l).trans ?_
  -- the change of format is the identity
  exact planes_apply x2 d k l

/-- Plane 1 of the stack holds each table entry minus itself. -/
theorem stack_lo (x2 : FVec Ideal S65536x2 .f32) (d : Fin 2) (k l : Fin 256) :
    KernelHost.tableStack x2 (ix4 (1 : Fin 2) d k l)
      = x2 (ix2 ⟨256 * k.val + l.val, by have := k.isLt; have := l.isLt; omega⟩ d)
        - x2 (ix2 ⟨256 * k.val + l.val, by have := k.isLt; have := l.isLt; omega⟩ d) := by
  unfold KernelHost.tableStack KernelHost.stack2
  -- leading coordinate 1 falls in the second piece, at leading coordinate 1 - 1 = 0
  refine (concatenate_pair_apply_right (s₁ := S1x2x256x256) (s₂ := S1x2x256x256) 0 _ _ _ (ix4 (1 : Fin 2) d k l) rfl rfl (ix4 (0 : Fin 1) d k l)
    (fun b hb => match b, hb with
      | ⟨0, _⟩, hb => absurd rfl hb
      | ⟨1, _⟩, _ => rfl
      | ⟨2, _⟩, _ => rfl
      | ⟨3, _⟩, _ => rfl)
    (by show (0 : Nat) + 1 = 1; rfl)).trans ?_
  refine (lead_apply _ d k l).trans ?_
  -- the changes of format are the identity, the difference is entrywise
  show KernelHost.planes x2 (ix3 d k l) - KernelHost.planes x2 (ix3 d k l) = _
  rw [planes_apply]

end Cert.TableRead

end
-- ==== Proof.ArrayValue.lean ====
/-
  The array the pallas call leaves.

  Grid point t works on rows 4096·t … 4096·t + 4095: its index-column block is those rows of the index column, its table
  block is the whole table stack, and the block it writes back is those rows of ONE array K: at (b, d), column d of
  the table row that row b's code names. On binary digits the code is below 2^16, so its two bytes are lane numbers
  and 256·high + low is the code; on a table of real entries the second plane (each entry minus itself) adds zero.
  The 512 blocks tile the 2097152 rows, so the array ends holding K.
-/
import proofs.«417682_j17712445129393_3_alg».proof.Proof.Gen.KernelIdeal.Frame
import proofs.«417682_j17712445129393_3_alg».proof.Proof.BlockValue
import proofs.«417682_j17712445129393_3_alg».proof.Proof.KernelArgs
import proofs.«417682_j17712445129393_3_alg».proof.Proof.TableRead
import Idealize.ShloMosaic.Lib.Pipeline.Value
import Idealize.ShloMosaic.Lib.Tactic

noncomputable section

namespace Cert.ArrayValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The array the call leaves: at (b, d), column d of the table row that row b's code names. -/
def K (x1 : IVec S2097152x16 32) (x2 : FVec Ideal S65536x2 .f32) : S2097152x2.Idx → EReal :=
  fun i => x2 (ix2 (Spec.row x1 (i 0)) (i 1))

/-- The index maps over the grid: windows 0 and 2 move one block of rows per point, window 1 stays. -/
theorem idx_facts : ∀ t : Fin cfg0.N, win0_0.index t (0 : Fin 2) = t.val ∧ win0_0.index t (1 : Fin 2) = 0
    ∧ win0_2.index t (0 : Fin 2) = t.val ∧ win0_2.index t (1 : Fin 2) = 0
    ∧ win0_1.index t (0 : Fin 4) = 0 ∧ win0_1.index t (1 : Fin 4) = 0
    ∧ win0_1.index t (2 : Fin 4) = 0 ∧ win0_1.index t (3 : Fin 4) = 0 :=
  (by decide +kernel : ∀ t : Fin grid0.N, _)

/-- Window 0's block at point t, read off ANY array of the index column's shape: row r of the block is row 4096·t + r. -/
theorem read_blk0 (X : IVec S2097152x1 32) (t : Fin cfg0.N) (r : Fin 4096) (b : Fin 2097152)
    (hb : b.val = 4096 * t.val + r.val) :
    (((cfg0.win 0).blk t).view.read (Elt Ideal) X : Vec Ideal S4096x1 .i32) (ix2 r (⟨0, Nat.one_pos⟩ : Fin 1))
      = X (ix2 b (⟨0, Nat.one_pos⟩ : Fin 1)) := by
  obtain ⟨e0, e1, -⟩ := idx_facts t
  rw [View.read_apply]
  refine congrArg X ?_
  funext a
  apply Fin.ext
  match a with
  | ⟨0, _⟩ => show win0_0.index t 0 * 4096 + 1 * r.val = b.val; rw [e0, hb]; omega
  | ⟨1, _⟩ => show win0_0.index t 1 * 1 + 1 * 0 = 0; rw [e1]

/-- Window 1's block at point t, read off ANY array of the table stack's shape, is the array. -/
theorem read_blk1 (X : FVec Ideal S2x2x256x256 .bf16) (t : Fin cfg0.N) (j : S2x2x256x256.Idx) :
    (((cfg0.win 1).blk t).view.read (Elt Ideal) X : Vec Ideal S2x2x256x256 .bf16) j = X j := by
  obtain ⟨-, -, -, -, f0, f1, f2, f3⟩ := idx_facts t
  rw [View.read_apply]
  refine congrArg X ?_
  funext a
  apply Fin.ext
  match a with
  | ⟨0, _⟩ => show win0_1.index t 0 * 2 + 1 * (j 0).val = (j 0).val; rw [f0]; omega
  | ⟨1, _⟩ => show win0_1.index t 1 * 2 + 1 * (j 1).val = (j 1).val; rw [f1]; omega
  | ⟨2, _⟩ => show win0_1.index t 2 * 256 + 1 * (j 2).val = (j 2).val; rw [f2]; omega
  | ⟨3, _⟩ => show win0_1.index t 3 * 256 + 1 * (j 3).val = (j 3).val; rw [f3]; omega

/-- Row r of point t's index-column block is row 4096·t + r of the index column. -/
theorem xblk_apply (c : Dev nD) (t : Fin cfg0.N) (r : Fin 4096) (b : Fin 2097152) (hb : b.val = 4096 * t.val + r.val) :
    (iblk (F := Ideal) m c 0 t : Vec Ideal S4096x1 .i32) (ix2 r (⟨0, Nat.one_pos⟩ : Fin 1))
      = (V (F := Ideal) m c main_v64 : IVec S2097152x1 32) (ix2 b (⟨0, Nat.one_pos⟩ : Fin 1)) :=
  read_blk0 (V (F := Ideal) m c main_v64) t r b hb

/-- Point t's table block is the whole table stack. -/
theorem tblk_apply (c : Dev nD) (t : Fin cfg0.N) (j : S2x2x256x256.Idx) :
    (iblk (F := Ideal) m c 1 t : Vec Ideal S2x2x256x256 .bf16) j = (V (F := Ideal) m c main_v73 : FVec Ideal S2x2x256x256 .bf16) j :=
  read_blk1 (V (F := Ideal) m c main_v73) t j

/-- On binary digits, row r of point t's index-column block is the code of row 4096·t + r. -/
theorem xblk_code (c : Dev nD) (hx : ∀ i, (m ((c : Thread nD τ).loc main_arg1) : IVec S2097152x16 32) i = 0#32 ∨ (m ((c : Thread nD τ).loc main_arg1) : IVec S2097152x16 32) i = 1#32)
    (t : Fin cfg0.N) (r : Fin 4096) (b : Fin 2097152) (hb : b.val = 4096 * t.val + r.val) :
    (iblk (F := Ideal) m c 0 t : Vec Ideal S4096x1 .i32) (ix2 r (⟨0, Nat.one_pos⟩ : Fin 1))
      = Spec.code (m ((c : Thread nD τ).loc main_arg1)) b := by
  rw [xblk_apply m c t r b hb, KernelHost.V_idxCol, KernelArgs.idxCol_apply _ hx]

/-- The two planes at a code's bytes: the table entry in the row the code names. -/
theorem value_at (x1 : IVec S2097152x16 32) (x2 : FVec Ideal S65536x2 .f32) (hx : ∀ i, x1 i = 0#32 ∨ x1 i = 1#32)
    (hr : ∀ j, ∃ v : ℝ, x2 j = (v : EReal)) (w : BitVec 32) (hw : w.toNat < 65536) (b : Fin 2097152)
    (hcode : w = Spec.code x1 b) (d : Fin 2) :
    KernelHost.tableStack x2 (ix4 (0 : Fin 2) d (BodyValue.hiLane w hw) (BodyValue.loLane w))
      + KernelHost.tableStack x2 (ix4 (1 : Fin 2) d (BodyValue.hiLane w hw) (BodyValue.loLane w))
      = x2 (ix2 (Spec.row x1 b) d) := by
  rw [TableRead.stack_hi, TableRead.stack_lo]
  obtain ⟨v, hv⟩ := hr (ix2 ⟨256 * (BodyValue.hiLane w hw).val + (BodyValue.loLane w).val,
    by have := (BodyValue.hiLane w hw).isLt; have := (BodyValue.loLane w).isLt; omega⟩ d)
  rw [hv, Select.sub_self_real, add_zero, ← hv]
  refine congrArg x2 (congrArg (fun q => ix2 q d) (Fin.ext ?_))
  show 256 * (w.toNat / 256) + w.toNat % 256 = (Spec.row x1 b).val
  rw [Spec.row_val x1 hx b, ← hcode]
  omega

/-- What the claim assumes of the two argument arrays, read at core c: binary digits and a table of real entries. -/
structure Admitted (c : Dev nD) : Prop where
  digits : ∀ i, (m ((c : Thread nD τ).loc main_arg1) : IVec S2097152x16 32) i = 0#32
    ∨ (m ((c : Thread nD τ).loc main_arg1) : IVec S2097152x16 32) i = 1#32
  reals : ∀ j, ∃ v : ℝ, (m ((c : Thread nD τ).loc main_arg2) : FVec Ideal S65536x2 .f32) j = (v : EReal)

/-- Point t's index-column block, at its literal type. -/
abbrev xb (c : Dev nD) (t : Fin cfg0.N) : Vec Ideal S4096x1 .i32 := iblk (F := Ideal) m c 0 t
/-- Point t's table block, at its literal type. -/
abbrev tb (c : Dev nD) (t : Fin cfg0.N) : Vec Ideal S2x2x256x256 .bf16 := iblk (F := Ideal) m c 1 t

theorem tb_eq (c : Dev nD) (t : Fin cfg0.N) :
    tb m c t = KernelHost.tableStack (m ((c : Thread nD τ).loc main_arg2)) :=
  funext fun j => (tblk_apply m c t j).trans (congrFun (KernelHost.V_table m c) j)

/-- WHAT POINT t WRITES BACK is block t of K. -/
theorem flushed_eq (c : Dev nD) (ha : Admitted m c) (t : Fin cfg0.N) :
    (dats (F := Ideal) m 0 c).flushed 2 t
      = ((cfg0.win 2).blk t).view.read (Elt Ideal)
          (K (m ((c : Thread nD τ).loc main_arg1)) (m ((c : Thread nD τ).loc main_arg2))) := by
  have hN : cfg0.N = 512 := N_0
  have ht : t.val < 512 := by have := t.isLt; omega
  obtain ⟨-, -, g0, g1, -⟩ := idx_facts t
  have hcode : ∀ r : Fin 4096, xb m c t (ix2 r (⟨0, Nat.one_pos⟩ : Fin 1))
      = Spec.code (m ((c : Thread nD τ).loc main_arg1)) ⟨4096 * t.val + r.val, by have := r.isLt; omega⟩ :=
    fun r => xblk_code m c ha.digits t r _ rfl
  have hw : ∀ r : Fin 4096, (xb m c t (ix2 r (⟨0, Nat.one_pos⟩ : Fin 1))).toNat < 65536 := fun r => by
    rw [hcode r]; exact Spec.code_lt _ ha.digits _
  show (cfg0.win 2).cut (grid0.coords t) ((dats (F := Ideal) m 0 c).after 2 t) = _
  rw [after0_2]
  funext j
  have hj0 : (j 0).val < 4096 := (j 0).isLt
  have hj1 : (j 1).val < 2 := (j 1).isLt
  show out0_2 (F := Ideal) (xb m c t) (tb m c t) j = K _ _ (((cfg0.win 2).blk t).view.emb j)
  refine (BlockValue.block_eq (xb m c t) (tb m c t) hw j).trans ?_
  unfold BlockValue.blockAt
  rw [tb_eq m c t]
  refine (value_at _ _ ha.digits ha.reals _ (hw (j 0)) ⟨4096 * t.val + (j 0).val, by omega⟩
    (hcode (j 0)) (j 1)).trans ?_
  have ea : ((((cfg0.win 2).blk t).view.emb j) 0 : Fin 2097152)
      = (⟨4096 * t.val + (j 0).val, by omega⟩ : Fin 2097152) :=
    Fin.ext (by show win0_2.index t 0 * 4096 + 1 * (j 0).val = 4096 * t.val + (j 0).val; rw [g0]; omega)
  have eb : ((((cfg0.win 2).blk t).view.emb j) 1 : Fin 2) = j 1 :=
    Fin.ext (by show win0_2.index t 1 * 2 + 1 * (j 1).val = (j 1).val; rw [g1]; omega)
  show _ = (m ((c : Thread nD τ).loc main_arg2) : FVec Ideal S65536x2 .f32)
    (ix2 (Spec.row (m ((c : Thread nD τ).loc main_arg1)) ((((cfg0.win 2).blk t).view.emb j) 0)) ((((cfg0.win 2).blk t).view.emb j) 1))
  rw [ea, eb]

/-- An index of the array is in point t's block iff each coordinate is in the block's range on its axis. -/
theorem mem_blk (t : Fin cfg0.N) (i : S2097152x2.Idx) :
    i ∈ ((cfg0.win 2).blk t).view.set ↔ ∀ a : Fin 2, win0_2.index t a * S4096x2.size a ≤ (i a).val
      ∧ (i a).val < win0_2.index t a * S4096x2.size a + S4096x2.size a := by
  show i ∈ ((View.whole main_v74).slice (win0_2.rect t)).set ↔ _
  rw [View.set_slice_whole, Rect.mem_set_unit]
  exact Iff.rfl

/-- Every index of the array lies in some point's block: row b in the block of point b / 4096. -/
theorem cover (i : S2097152x2.Idx) :
    ∃ t : Fin cfg0.N, (cfg0.win 2).flush t = true ∧ i ∈ ((cfg0.win 2).blk t).view.set := by
  have hN : cfg0.N = 512 := N_0
  have hi0 : (i 0).val < 2097152 := (i 0).isLt
  have hi1 : (i 1).val < 2 := (i 1).isLt
  have hlt : (i 0).val / 4096 < cfg0.N := by rw [hN]; omega
  obtain ⟨-, -, g0, g1, -⟩ := idx_facts ⟨(i 0).val / 4096, hlt⟩
  refine ⟨⟨(i 0).val / 4096, hlt⟩, flush0_2 _, ?_⟩
  rw [mem_blk]
  intro a
  match a with
  | ⟨0, _⟩ =>
    show win0_2.index ⟨(i 0).val / 4096, hlt⟩ (0 : Fin 2) * 4096 ≤ (i 0).val
      ∧ (i 0).val < win0_2.index ⟨(i 0).val / 4096, hlt⟩ (0 : Fin 2) * 4096 + 4096
    rw [g0]
    show (i 0).val / 4096 * 4096 ≤ (i 0).val ∧ (i 0).val < (i 0).val / 4096 * 4096 + 4096
    omega
  | ⟨1, _⟩ =>
    show win0_2.index ⟨(i 0).val / 4096, hlt⟩ (1 : Fin 2) * 2 ≤ (i 1).val
      ∧ (i 1).val < win0_2.index ⟨(i 0).val / 4096, hlt⟩ (1 : Fin 2) * 2 + 2
    rw [g1]
    omega

/-- THE ARRAY after the run is K of the argument arrays. -/
theorem final (c : Dev nD) (ha : Admitted m c) :
    (dats (F := Ideal) m 0 c).arrAt 2 cfg0.N
      = K (m ((c : Thread nD τ).loc main_arg1)) (m ((c : Thread nD τ).loc main_arg2)) :=
  (dats (F := Ideal) m 0 c).arrAt_eq_of_cover 2 _ (fun t _ => flushed_eq m c ha t) cover

end Cert.ArrayValue

end
-- ==== Proof.KernelRun.lean ====
/-
  The kernel program's run, read: its two results as functions of the argument arrays.

  After the call the program slices the call's array into its two columns. Column d of the array K is the common
  function G at column d.
-/
import proofs.«417682_j17712445129393_3_alg».proof.Proof.ArrayValue
import Idealize.ShloMosaic.Lib.StableHlo.Run
import Idealize.ShloMosaic.Lib.Pipeline.Value

noncomputable section

namespace Cert.KernelRun

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

/-- Where column d of a two-column array is read from: row (i 0), column d. -/
abbrev colIdx0 (i : S2097152x1.Idx) : S2097152x2.Idx := fun a => match a with
  | ⟨0, _⟩ => ⟨(i 0).val, (i 0).isLt⟩
  | ⟨1, _⟩ => ⟨(i 1).val, by have h1 : (i 1).val < 1 := (i 1).isLt; show (i 1).val < 2; omega⟩
abbrev colIdx1 (i : S2097152x1.Idx) : S2097152x2.Idx := fun a => match a with
  | ⟨0, _⟩ => ⟨(i 0).val, (i 0).isLt⟩
  | ⟨1, _⟩ => ⟨1 + (i 1).val, by have h1 : (i 1).val < 1 := (i 1).isLt; show 1 + (i 1).val < 2; omega⟩

/-- The slice [0:2097152, 0:1] of ANY two-column array reads column 0. -/
theorem col0 (y : S2097152x2.Idx → EReal) (i : S2097152x1.Idx) :
    extractStridedSlice S2097152x1 ![0, 0] y slices_S2097152x2_S2097152x1_0_0 i = y (colIdx0 i) :=
  extractStridedSlice_apply ![0, 0] y slices_S2097152x2_S2097152x1_0_0 i (colIdx0 i) (fun a => match a with
    | ⟨0, _⟩ => by show (i 0).val = 0 + (i 0).val; omega
    | ⟨1, _⟩ => by show (i 1).val = 0 + (i 1).val; omega)

/-- The slice [0:2097152, 1:2] of ANY two-column array reads column 1. -/
theorem col1 (y : S2097152x2.Idx → EReal) (i : S2097152x1.Idx) :
    extractStridedSlice S2097152x1 ![0, 1] y slices_S2097152x2_S2097152x1_0_1 i = y (colIdx1 i) :=
  extractStridedSlice_apply ![0, 1] y slices_S2097152x2_S2097152x1_0_1 i (colIdx1 i) (fun a => match a with
    | ⟨0, _⟩ => by show (i 0).val = 0 + (i 0).val; omega
    | ⟨1, _⟩ => by show 1 + (i 1).val = 1 + (i 1).val; omega)

/-- Column 0 of K. -/
theorem slice0 (x1 : IVec S2097152x16 32) (x2 : FVec Ideal S65536x2 .f32) :
    extractStridedSlice S2097152x1 ![0, 0] (ArrayValue.K x1 x2) slices_S2097152x2_S2097152x1_0_0 = Spec.G x1 x2 0 := by
  funext i
  refine (col0 (ArrayValue.K x1 x2) i).trans ?_
  have h1 : (i 1).val < 1 := (i 1).isLt
  have e1 : (colIdx0 i 1 : Fin 2) = (0 : Fin 2) := Fin.ext (by show (i 1).val = 0; omega)
  show x2 (ix2 (Spec.row x1 (colIdx0 i 0)) (colIdx0 i 1)) = x2 (ix2 (Spec.row x1 (i 0)) 0)
  rw [e1]
  rfl

/-- Column 1 of K. -/
theorem slice1 (x1 : IVec S2097152x16 32) (x2 : FVec Ideal S65536x2 .f32) :
    extractStridedSlice S2097152x1 ![0, 1] (ArrayValue.K x1 x2) slices_S2097152x2_S2097152x1_0_1 = Spec.G x1 x2 1 := by
  funext i
  refine (col1 (ArrayValue.K x1 x2) i).trans ?_
  have h1 : (i 1).val < 1 := (i 1).isLt
  have e1 : (colIdx1 i 1 : Fin 2) = (1 : Fin 2) := Fin.ext (by show 1 + (i 1).val = 1; omega)
  show x2 (ix2 (Spec.row x1 (colIdx1 i 0)) (colIdx1 i 1)) = x2 (ix2 (Spec.row x1 (i 0)) 1)
  rw [e1]
  rfl

variable (m : (ℓ : Loc nD τ sig) → Buf (Elt Ideal) ℓ) (ρ : Dev nD → PrngReg)

/-- The first result after the lines that follow the call: column 0 of what the call left. -/
theorem tail75 (c : Dev nD) (ha : ArrayValue.Admitted m c) :
    Pipeline.afterTail₀ cfgs (dats (F := Ideal) m) 0 (V0 m) [hostOps1] c main_v75
      = Spec.G (m ((c : Thread nD τ).loc main_arg1)) (m ((c : Thread nD τ).loc main_arg2)) 0 := by
  unfold Pipeline.afterTail₀
  show StableHlo.after hostOps1 _ (Proc.devRef .tc main_v75) = _
  after_results
  refine (congrArg (fun y => extractStridedSlice S2097152x1 ![0, 0] y slices_S2097152x2_S2097152x1_0_0)
    ((Pipeline.withArrays_arr spec0 launch0.win.arr_inj c (V0 m c) (fun w => (dats (F := Ideal) m 0 c).arrAt w cfg0.N) 2).trans (ArrayValue.final m c ha))).trans ?_
  exact slice0 _ _

/-- The second result: column 1 of what the call left. -/
theorem tail76 (c : Dev nD) (ha : ArrayValue.Admitted m c) :
    Pipeline.afterTail₀ cfgs (dats (F := Ideal) m) 0 (V0 m) [hostOps1] c main_v76
      = Spec.G (m ((c : Thread nD τ).loc main_arg1)) (m ((c : Thread nD τ).loc main_arg2)) 1 := by
  unfold Pipeline.afterTail₀
  show StableHlo.after hostOps1 _ (Proc.devRef .tc main_v76) = _
  after_results
  refine (congrArg (fun y => extractStridedSlice S2097152x1 ![0, 1] y slices_S2097152x2_S2097152x1_0_1)
    ((Pipeline.withArrays_arr spec0 launch0.win.arr_inj c (V0 m c) (fun w => (dats (F := Ideal) m 0 c).arrAt w cfg0.N) 2).trans (ArrayValue.final m c ha))).trans ?_
  exact slice1 _ _

/-- THE KERNEL PROGRAM'S RUN, READ: on admitted inputs every weakly fair execution terminates with the two results at
    the common function's two columns and the arguments unchanged. -/
theorem run (hadm : ∀ c, ArrayValue.Admitted m c) :
    θ_run defs (onTc (τ := τ) (main (F := Ideal))) ⟨m, fun _ => 0, ρ⟩ (fun r => ∀ c : Dev nD,
      r.2.mem ((c.tc : Thread nD τ).loc main_v75)
          = Spec.G (m ((c.tc : Thread nD τ).loc main_arg1)) (m ((c.tc : Thread nD τ).loc main_arg2)) 0
      ∧ r.2.mem ((c.tc : Thread nD τ).loc main_v76)
          = Spec.G (m ((c.tc : Thread nD τ).loc main_arg1)) (m ((c.tc : Thread nD τ).loc main_arg2)) 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v75 (Pipeline.mem_restRefs_of main_v75 (by decide) (by decide))).trans (tail75 m c (hadm c)),
      ((h c).2 main_v76 (Pipeline.mem_restRefs_of main_v76 (by decide) (by decide))).trans (tail76 m c (hadm c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelRun

end
-- ==== Proof.lean ====
/-
  The certificate: a 65536-row table looked up by a sixteen-digit binary code, once by a Pallas kernel and once by jnp.

  Each row of the digit array holds sixteen words; the claim is about inputs where each is 0 or 1 (the rows are base-2
  numerals) and the table's entries are real numbers. The row's code is the sum of digit k times 2^(15-k).
  THE REFERENCE sums digit times weight in 32-bit words and takes the table row of that number. THE KERNEL clamps
  every digit into [0, 1] first (which changes nothing on binary digits), forms the same sum, and looks the row up
  without a gather: it splits the code into a high and a low byte, multiplies the 256-lane one-hot vector of the high
  byte into the table laid out as 256×256 planes (a matrix product that picks one row of the plane), multiplies the
  result lane by lane with the one-hot vector of the low byte and sums the lanes (which picks one entry of that row).
  To keep accuracy in the 16-bit matrix unit it does this for the 16-bit copy of the table and for what the copy
  misses, and adds the two; over the extended reals a change of format is the identity, so the second plane is each
  entry minus itself, which is zero for a real entry. Zero times anything is zero over the extended reals, so the
  one-hot sums need no finiteness; the second plane is the one place where the table's entries being real is used.
  Both programs then return the two columns of the looked-up rows.

  The two frames of the kernel programs are generated; the reference's frame is its generated run with the results
  dropped; there is nothing to preserve (the idealisation rewrote nothing).
-/
import proofs.«417682_j17712445129393_3_alg».proof.Defs
import proofs.«417682_j17712445129393_3_alg».proof.Proof.Gen.Kernel
import proofs.«417682_j17712445129393_3_alg».proof.Proof.Gen.Kernel.Skeleton
import proofs.«417682_j17712445129393_3_alg».proof.Proof.Gen.Kernel.Launch
import proofs.«417682_j17712445129393_3_alg».proof.Proof.Gen.Kernel.Points
import proofs.«417682_j17712445129393_3_alg».proof.Proof.Gen.Kernel.Frame
import proofs.«417682_j17712445129393_3_alg».proof.Proof.Gen.KernelIdeal
import proofs.«417682_j17712445129393_3_alg».proof.Proof.Gen.KernelIdeal.Skeleton
import proofs.«417682_j17712445129393_3_alg».proof.Proof.Gen.KernelIdeal.Launch
import proofs.«417682_j17712445129393_3_alg».proof.Proof.Gen.KernelIdeal.Points
import proofs.«417682_j17712445129393_3_alg».proof.Proof.Gen.KernelIdeal.Frame
import proofs.«417682_j17712445129393_3_alg».proof.Proof.Gen.ReferenceIdeal
import proofs.«417682_j17712445129393_3_alg».proof.Proof.Gen.ReferenceIdeal.Run
import proofs.«417682_j17712445129393_3_alg».proof.Proof.Gen.ReferenceIdeal.Read
import proofs.«417682_j17712445129393_3_alg».proof.Proof.Gen.Pre_finite_inputs
import proofs.«417682_j17712445129393_3_alg».proof.Proof.PreDecode
import proofs.«417682_j17712445129393_3_alg».proof.Proof.RefValue
import proofs.«417682_j17712445129393_3_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealisation rewrote nothing, so there is nothing to preserve. -/
theorem preserves : Cert.preserves_Kernel_KernelIdeal := trivial

/-- On admitted inputs the kernel's two results (its generated frame run, read) and the reference's two results (its
    generated run, read) are the same function of arguments that agree: the columns of the table rows the codes name. -/
theorem algebraic : Cert.algebraic_KernelIdeal_ReferenceIdeal := by
  intro m ρ m' ρ' hpre hagree
  have hadm : ∀ c, Cert.ArrayValue.Admitted m c := fun c =>
    let ⟨hd, hr⟩ := Cert.PreDecode.decode _ _ _ (hpre c)
    ⟨hd, hr⟩
  refine ⟨fun c => Cert.Spec.G (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) 0,
    fun c => Cert.Spec.G (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) 1,
    Cert.KernelRun.run m ρ hadm, ?_⟩
  refine (θ_run Cert.ReferenceIdeal.defs _ _).mono
    (fun _ h c => ⟨?_, ?_, (h c).2.2.1, (h c).2.2.2.1, (h c).2.2.2.2⟩)
    (Cert.ReferenceIdeal.Value.run (F := Ideal) m' ρ')
  · rw [(h c).1, Cert.ReferenceIdeal.Read.val_main_v70_eq, (hagree c).2.1, (hagree c).2.2]
    exact Cert.RefValue.result0 _ _ (hadm c).digits
  · rw [(h c).2.1, Cert.ReferenceIdeal.Read.val_main_v71_eq, (hagree c).2.1, (hagree c).2.2]
    exact Cert.RefValue.result1 _ _ (hadm c).digits

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
